-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S576x256 : S_.BroadcastsInDim S576x256 (![] : Fin 0 → Fin S576x256.rank)
  reducesTo_S576x256_S_d0_1 : S576x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x1 .f32) (main_arg14 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S576x256 .f32 := Host.absf main_arg9
  let main_cst_14 : FVec F S_ .f32 := constant S_ .f32 0x7F800000#32
  let main_v40 : FVec F S576x256 .f32 := broadcastInDim S576x256 ![] bcast_S_S576x256 main_cst_14
  let main_v41 : IVec S576x256 1 := cmpf .olt main_v39 main_v40
  let main_c_15 : IVec S_ 1 := constantI S_ 1 1#1
  let main_v42 : IVec S_ 1 := (fun x v => Host.reduce IntOp.andi x v reducesTo_S576x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S256 .f32) (main_arg6 : FVec F S256x256 .f32) (main_arg7 : FVec F S256x256 .f32) (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x400000 32) (main_arg2 : FVec F S400000x64 .f32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg2
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S400000x256 : Shape := ⟨2, ![400000, 256]⟩
abbrev S400000x576 : Shape := ⟨2, ![400000, 576]⟩
abbrev S1x128 : Shape := ⟨2, ![1, 128]⟩
abbrev S1x1 : Shape := ⟨2, ![1, 1]⟩
abbrev S5000x576 : Shape := ⟨2, ![5000, 576]⟩
abbrev S5000x1 : Shape := ⟨2, ![5000, 1]⟩

abbrev nBuf : Space → Nat
  | .hbm => 107
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S576x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S_, .f32⟩
  | .hbm, ⟨29, _⟩ => ⟨S50000x128, .f32⟩
  | .hbm, ⟨30, _⟩ => ⟨S400000x1, .i32⟩
  | .hbm, ⟨31, _⟩ => ⟨S50000x128, .f32⟩
  | .hbm, ⟨32, _⟩ => ⟨S_, .f32⟩
  | .hbm, ⟨33, _⟩ => ⟨S400000x1, .f32⟩
  | .hbm, ⟨34, _⟩ => ⟨S_, .f32⟩
  | .hbm, ⟨35, _⟩ => ⟨S50000x1, .f32⟩
  | .hbm, ⟨36, _⟩ => ⟨S400000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .bf16⟩
  | .hbm, ⟨44, _⟩ => ⟨S50000x128, .bf16⟩
  | .hbm, ⟨45, _⟩ => ⟨S128x256, .bf16⟩
  | .hbm, ⟨46, _⟩ => ⟨S128x256, .bf16⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S400000x256, .f32⟩
  | .hbm, ⟨58, _⟩ => ⟨S_, .f32⟩
  | .hbm, ⟨59, _⟩ => ⟨S50000x256, .f32⟩
  | .hbm, ⟨60, _⟩ => ⟨S400000x1, .i32⟩
  | .hbm, ⟨61, _⟩ => ⟨S50000x256, .f32⟩
  | .hbm, ⟨62, _⟩ => ⟨S_, .f32⟩
  | .hbm, ⟨63, _⟩ => ⟨S400000x1, .f32⟩
  | .hbm, ⟨64, _⟩ => ⟨S_, .f32⟩
  | .hbm, ⟨65, _⟩ => ⟨S50000x1, .f32⟩
  | .hbm, ⟨66, _⟩ => ⟨S400000x1, .i32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x256, .bf16⟩
  | .hbm, ⟨74, _⟩ => ⟨S50000x256, .bf16⟩
  | .hbm, ⟨75, _⟩ => ⟨S256x256, .bf16⟩
  | .hbm, ⟨76, _⟩ => ⟨S256x256, .bf16⟩
  | .hbm, ⟨77, _⟩ => ⟨S1x256, .f32⟩
  | .hbm, ⟨78, _⟩ => ⟨S50000x256, .f32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x256, .f32⟩
  | .hbm, ⟨88, _⟩ => ⟨S_, .i32⟩
  | .hbm, ⟨89, _⟩ => ⟨S400000, .i32⟩
  | .hbm, ⟨90, _⟩ => ⟨S400000, .i1⟩
  | .hbm, ⟨91, _⟩ => ⟨S_, .i32⟩
  | .hbm, ⟨92, _⟩ => ⟨S400000, .i32⟩
  | .hbm, ⟨93, _⟩ => ⟨S400000, .i32⟩
  | .hbm, ⟨94, _⟩ => ⟨S400000, .i32⟩
  | .hbm, ⟨95, _⟩ => ⟨S400000x1, .i32⟩
  | .hbm, ⟨96, _⟩ => ⟨S400000x256, .f32⟩
  | .hbm, ⟨97, _⟩ => ⟨S400000x576, .f32⟩
  | .hbm, ⟨98, _⟩ => ⟨S400000x576, .bf16⟩
  | .hbm, ⟨99, _⟩ => ⟨S576x256, .bf16⟩
  | .hbm, ⟨100, _⟩ => ⟨S256x128, .bf16⟩
  | .hbm, ⟨101, _⟩ => ⟨S128x1, .bf16⟩
  | .hbm, ⟨102, _⟩ => ⟨S1x256, .f32⟩
  | .hbm, ⟨103, _⟩ => ⟨S1x128, .f32⟩
  | .hbm, ⟨104, _⟩ => ⟨S1x1, .f32⟩
  | .hbm, ⟨105, _⟩ => ⟨S400000x1, .f32⟩
  | .hbm, ⟨106, _⟩ => ⟨S400000, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .bf16⟩
  | .local _ .vmem, ⟨10, _⟩ => ⟨S5000x256, .bf16⟩
  | .local _ .vmem, ⟨11, _⟩ => ⟨S5000x256, .bf16⟩
  | .local _ .vmem, ⟨12, _⟩ => ⟨S5000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x576, .bf16⟩
  | .local _ .vmem, ⟨19, _⟩ => ⟨S5000x576, .bf16⟩
  | .local _ .vmem, ⟨20, _⟩ => ⟨S576x256, .bf16⟩
  | .local _ .vmem, ⟨21, _⟩ => ⟨S1x256, .f32⟩
  | .local _ .vmem, ⟨22, _⟩ => ⟨S256x128, .bf16⟩
  | .local _ .vmem, ⟨23, _⟩ => ⟨S1x128, .f32⟩
  | .local _ .vmem, ⟨24, _⟩ => ⟨S128x1, .bf16⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x576 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S400000x256_S400000x256_S400000x64_S400000x576_d1 : Shape.Concatenates [S400000x256, S400000x256, S400000x64] S400000x576 1
  shapeCasts_S128_S1x128 : S128.ShapeCasts S1x128
  shapeCasts_S1_S1x1 : S1.ShapeCasts S1x1
  inb_S5000x576_S5000x576_0_0 : ∀ a, (![0, 0] : Fin 2 → Nat) a + S5000x576.size a ≤ S5000x576.size a
  h_S5000x576 : 0 < S5000x576.numel
  shapeCasts_S5000x576_S5000x576 : S5000x576.ShapeCasts S5000x576
  inb_S576x256_S576x256_0_0 : ∀ a, (![0, 0] : Fin 2 → Nat) a + S576x256.size a ≤ S576x256.size a
  h_S576x256 : 0 < S576x256.numel
  shapeCasts_S576x256_S576x256 : S576x256.ShapeCasts S576x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S400000x1_S400000 : S400000x1.ShapeCasts S400000
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S5000x128_S128x256_S5000x256_1_0_0_1_n_n_wf : DotDims.WF S5000x128 S128x256 S5000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S5000x256_S256x256_S5000x256_1_0_0_1_n_n_wf : DotDims.WF S5000x256 S256x256 S5000x256 [1] [0] [0] [1] [] []
  dot_S5000x576_S576x256_S5000x256_1_0_0_1_n_n_wf : DotDims.WF S5000x576 S576x256 S5000x256 [1] [0] [0] [1] [] []
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .bf16 = 32 ∨ (Rect.block (s := S50000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x576.size a ≤ S400000x576.size a
  hwx2_0 : ∀ i : grid2.Coords, EltTy.bits .bf16 = 32 ∨ (Rect.block (s := S400000x576) S5000x576.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x256.size a ≤ S576x256.size a
  hwx2_1 : ∀ i : grid2.Coords, EltTy.bits .bf16 = 32 ∨ (Rect.block (s := S576x256) S576x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .bf16 = 32 ∨ (Rect.block (s := S128x1) S128x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S400000x1.size a
  hwx2_7 : ∀ i : grid2.Coords, EltTy.bits .f32 = 32 ∨ (Rect.block (s := S400000x1) S5000x1.size (cc2_transform_7 i) (hinb2_7 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x576_S576x256_S5000x256_1_0_0_1_n_n : DotDims S5000x576 S576x256 S5000x256 where
  lhsContracting := [1]
  rhsContracting := [0]
  lhsNonContracting := [0]
  rhsNonContracting := [1]
  lhsBatch := []
  rhsBatch := []
  wf := dot_S5000x576_S576x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S5000x576.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S576x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S50000x256 : Shape := ⟨2, ![50000, 256]⟩
abbrev S1x256 : Shape := ⟨2, ![1, 256]⟩
abbrev S400000x256 : Shape := ⟨2, ![400000, 256]⟩
abbrev S400000x576 : Shape := ⟨2, ![400000, 576]⟩
abbrev S1x128 : Shape := ⟨2, ![1, 128]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S576x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S_, .f32⟩
  | .hbm, ⟨29, _⟩ => ⟨S50000x128, .f32⟩
  | .hbm, ⟨30, _⟩ => ⟨S400000x1, .i32⟩
  | .hbm, ⟨31, _⟩ => ⟨S50000x128, .f32⟩
  | .hbm, ⟨32, _⟩ => ⟨S_, .f32⟩
  | .hbm, ⟨33, _⟩ => ⟨S400000x1, .f32⟩
  | .hbm, ⟨34, _⟩ => ⟨S_, .f32⟩
  | .hbm, ⟨35, _⟩ => ⟨S50000x1, .f32⟩
  | .hbm, ⟨36, _⟩ => ⟨S400000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x256, .f32⟩
  | .hbm, ⟨61, _⟩ => ⟨S_, .f32⟩
  | .hbm, ⟨62, _⟩ => ⟨S50000x256, .f32⟩
  | .hbm, ⟨63, _⟩ => ⟨S400000x1, .i32⟩
  | .hbm, ⟨64, _⟩ => ⟨S50000x256, .f32⟩
  | .hbm, ⟨65, _⟩ => ⟨S_, .f32⟩
  | .hbm, ⟨66, _⟩ => ⟨S400000x1, .f32⟩
  | .hbm, ⟨67, _⟩ => ⟨S_, .f32⟩
  | .hbm, ⟨68, _⟩ => ⟨S50000x1, .f32⟩
  | .hbm, ⟨69, _⟩ => ⟨S400000x1, .i32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .i32⟩
  | .hbm, ⟨83, _⟩ => ⟨S400000, .i32⟩
  | .hbm, ⟨84, _⟩ => ⟨S400000, .i1⟩
  | .hbm, ⟨85, _⟩ => ⟨S_, .i32⟩
  | .hbm, ⟨86, _⟩ => ⟨S400000, .i32⟩
  | .hbm, ⟨87, _⟩ => ⟨S400000, .i32⟩
  | .hbm, ⟨88, _⟩ => ⟨S400000, .i32⟩
  | .hbm, ⟨89, _⟩ => ⟨S400000x1, .i32⟩
  | .hbm, ⟨90, _⟩ => ⟨S400000x256, .f32⟩
  | .hbm, ⟨91, _⟩ => ⟨S_, .i32⟩
  | .hbm, ⟨92, _⟩ => ⟨S400000, .i32⟩
  | .hbm, ⟨93, _⟩ => ⟨S400000, .i1⟩
  | .hbm, ⟨94, _⟩ => ⟨S_, .i32⟩
  | .hbm, ⟨95, _⟩ => ⟨S400000, .i32⟩
  | .hbm, ⟨96, _⟩ => ⟨S400000, .i32⟩
  | .hbm, ⟨97, _⟩ => ⟨S400000, .i32⟩
  | .hbm, ⟨98, _⟩ => ⟨S400000x1, .i32⟩
  | .hbm, ⟨99, _⟩ => ⟨S400000x256, .f32⟩
  | .hbm, ⟨100, _⟩ => ⟨S400000x576, .f32⟩
  | .hbm, ⟨101, _⟩ => ⟨S400000x256, .f32⟩
  | .hbm, ⟨102, _⟩ => ⟨S1x256, .f32⟩
  | .hbm, ⟨103, _⟩ => ⟨S400000x256, .f32⟩
  | .hbm, ⟨104, _⟩ => ⟨S400000x256, .f32⟩
  | .hbm, ⟨105, _⟩ => ⟨S_, .f32⟩
  | .hbm, ⟨106, _⟩ => ⟨S400000x256, .f32⟩
  | .hbm, ⟨107, _⟩ => ⟨S400000x256, .f32⟩
  | .hbm, ⟨108, _⟩ => ⟨S400000x128, .f32⟩
  | .hbm, ⟨109, _⟩ => ⟨S1x128, .f32⟩
  | .hbm, ⟨110, _⟩ => ⟨S400000x128, .f32⟩
  | .hbm, ⟨111, _⟩ => ⟨S400000x128, .f32⟩
  | .hbm, ⟨112, _⟩ => ⟨S_, .f32⟩
  | .hbm, ⟨113, _⟩ => ⟨S400000x128, .f32⟩
  | .hbm, ⟨114, _⟩ => ⟨S400000x128, .f32⟩
  | .hbm, ⟨115, _⟩ => ⟨S400000x1, .f32⟩
  | .hbm, ⟨116, _⟩ => ⟨S1x1, .f32⟩
  | .hbm, ⟨117, _⟩ => ⟨S400000x1, .f32⟩
  | .hbm, ⟨118, _⟩ => ⟨S400000x1, .f32⟩
  | .hbm, ⟨119, _⟩ => ⟨S400000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call1_cst : Ref sig .tc := ⟨.hbm, 105, rfl⟩
abbrev main_call1_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call2_cst : Ref sig .tc := ⟨.hbm, 112, rfl⟩
abbrev main_call2_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S400000x256_S400000x256_S400000x64_S400000x576_d1 : Shape.Concatenates [S400000x256, S400000x256, S400000x64] S400000x576 1
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S400000x576_S576x256_S400000x256_1_0_0_1_n_n_wf : DotDims.WF S400000x576 S576x256 S400000x256 [1] [0] [0] [1] [] []
  dot_S400000x256_S256x128_S400000x128_1_0_0_1_n_n_wf : DotDims.WF S400000x256 S256x128 S400000x128 [1] [0] [0] [1] [] []
  dot_S400000x128_S128x1_S400000x1_1_0_0_1_n_n_wf : DotDims.WF S400000x128 S128x1 S400000x1 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S400000x576_S576x256_S400000x256_1_0_0_1_n_n : DotDims S400000x576 S576x256 S400000x256 where
  lhsContracting := [1]
  rhsContracting := [0]
  lhsNonContracting := [0]
  rhsNonContracting := [1]
  lhsBatch := []
  rhsBatch := []
  wf := dot_S400000x576_S576x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.K.Reg0.lean ====
/-
  Region 0 of the program: the first SAGE layer's kernel, stated at a PARAMETER `V`, the TensorCore's
  buffer contents when the region is entered.

  The kernel has five input windows and one output window on a grid of 10 points. At point `t` the
  row blocks of the two activation arrays (windows 0, 1: rows 5000·t … 5000·t + 4999) and the whole
  of the two weight matrices and of the bias row (windows 2, 3, 4: one block, the same at every
  point) are staged, and the body stores ONE value into the output window's buffer:
  `max (a·Wn + x·Ws + b, 0)` of the staged blocks (the payload `k0_pay1`). So what the output
  buffer holds after the body is that payload of the input blocks (`out0_5`), whatever it held
  before, and every input buffer is left as it was. This is what the pipeline's proof data
  (`dat0`) records, and the body obligation (`body_obligation0`) is the body's triple at a
  generic grid point.
-/
import proofs.«142010_j70282844831970_1_alg».proof.Proof.Gen.Kernel.Launch
import proofs.«142010_j70282844831970_1_alg».proof.Proof.Gen.Kernel.Skeleton
import proofs.«142010_j70282844831970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it
    or not (an unfetched window's block index has not moved since the last fetch), for any proof data over
    the arrays `V` whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_a : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-! ## What the body leaves in the output window's buffer -/

/-- The output window's staging buffer after the body, from the input windows' blocks: its one store as a
    list of pieces (window 0 the aggregated neighbours' rows, 1 the nodes' own rows, 2 and 3 the two weight
    matrices, 4 the bias row). -/
def out0_5 (x0 x1 : Vec F S5000x128 .bf16) (x2 x3 : Vec F S128x256 .bf16) (x4 : Vec F S1x256 .f32) : Vec F S5000x256 .f32 :=
  View.canon [⟨r0_o, k0_pay1 (View.ld x0 r0_a) (View.ld x2 r0_w) (View.ld x1 r0_a) (View.ld x3 r0_w) (View.ld x4 r0_b)⟩]

/-- The one store covers the buffer. -/
theorem cover0_5 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

/-! ## The body's triple -/

set_option maxHeartbeats 4000000 in
/-- The kernel body on whole staging memrefs, the inputs' at contents `xW` and the output's at anything,
    runs to the continuation holding the inputs' as they were and the output's at `out0_5` of the inputs'. -/
theorem sound_kernel0 (c : Dev nD) (E : Set ℕ) (i : grid0.Coords)
    (arg1 : Memref sig .tc .vmem S5000x128 .bf16) (harg1 : arg1.IsWhole) (arg2 : Memref sig .tc .vmem S5000x128 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S1x256 .f32) (harg5 : arg5.IsWhole) (arg6 : Memref sig .tc .vmem S5000x256 .f32) (harg6 : arg6.IsWhole)
    (x0 x1 : Vec F S5000x128 .bf16) (x2 x3 : Vec F S128x256 .bf16) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point
    `t` each input's buffer at its block and the output's at `out0_5` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1 of the program: the second SAGE layer's kernel, stated at a PARAMETER `V`, the TensorCore's
  buffer contents when the region is entered.

  The kernel has five input windows and one output window on a grid of 10 points. At point `t` the
  row blocks of the two activation arrays (windows 0, 1: rows 5000·t … 5000·t + 4999) and the whole
  of the two weight matrices and of the bias row (windows 2, 3, 4: one block, the same at every
  point) are staged, and the body stores ONE value into the output window's buffer:
  `a·Wn + x·Ws + b` of the staged blocks (the payload `k1_pay1`). So what the output
  buffer holds after the body is that payload of the input blocks (`out1_5`), whatever it held
  before, and every input buffer is left as it was. This is what the pipeline's proof data
  (`dat1`) records, and the body obligation (`body_obligation1`) is the body's triple at a
  generic grid point.
-/
import proofs.«142010_j70282844831970_1_alg».proof.Proof.Gen.Kernel.Launch
import proofs.«142010_j70282844831970_1_alg».proof.Proof.Gen.Kernel.Skeleton
import proofs.«142010_j70282844831970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it
    or not (an unfetched window's block index has not moved since the last fetch), for any proof data over
    the arrays `V` whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_a : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-! ## What the body leaves in the output window's buffer -/

/-- The output window's staging buffer after the body, from the input windows' blocks: its one store as a
    list of pieces (window 0 the aggregated neighbours' rows, 1 the nodes' own rows, 2 and 3 the two weight
    matrices, 4 the bias row). -/
def out1_5 (x0 x1 : Vec F S5000x256 .bf16) (x2 x3 : Vec F S256x256 .bf16) (x4 : Vec F S1x256 .f32) : Vec F S5000x256 .f32 :=
  View.canon [⟨r1_o, k1_pay1 (View.ld x0 r1_a) (View.ld x2 r1_w) (View.ld x1 r1_a) (View.ld x3 r1_w) (View.ld x4 r1_b)⟩]

/-- The one store covers the buffer. -/
theorem cover1_5 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

/-! ## The body's triple -/

set_option maxHeartbeats 4000000 in
/-- The kernel body on whole staging memrefs, the inputs' at contents `xW` and the output's at anything,
    runs to the continuation holding the inputs' as they were and the output's at `out1_5` of the inputs'. -/
theorem sound_kernel1 (c : Dev nD) (E : Set ℕ) (i : grid1.Coords)
    (arg1 : Memref sig .tc .vmem S5000x256 .bf16) (harg1 : arg1.IsWhole) (arg2 : Memref sig .tc .vmem S5000x256 .bf16) (harg2 : arg2.IsWhole)
    (arg3 : Memref sig .tc .vmem S256x256 .bf16) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .bf16) (x2 x3 : Vec F S256x256 .bf16) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point
    `t` each input's buffer at its block and the output's at `out1_5` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2 of the program: the edge classifier's kernel, stated at a PARAMETER `V`, the TensorCore's
  buffer contents when the region is entered.

  The kernel has seven input windows and one output window on a grid of 80 points. At point `t` the
  row block of the edges' concatenated features (window 0: rows 5000·t … 5000·t + 4999, 576 columns)
  and the whole of the three weight matrices and three bias rows (windows 1 … 6: one block each, the
  same at every point) are staged, and the body stores ONE value into the output window's buffer:
  the three-layer perceptron `max (max (x·W1 + b1, 0)·W2 + b2, 0)·W3 + b3` of the staged blocks (the
  payload `k2_pay1`). So what the output buffer holds after the body is that payload of the input
  blocks (`out2_7`), whatever it held before, and every input buffer is left as it was. This is what
  the pipeline's proof data (`dat2`) records, and the body obligation (`body_obligation2`) is the
  body's triple at a generic grid point.
-/
import proofs.«142010_j70282844831970_1_alg».proof.Proof.Gen.Kernel.Launch
import proofs.«142010_j70282844831970_1_alg».proof.Proof.Gen.Kernel.Skeleton
import proofs.«142010_j70282844831970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it
    or not (an unfetched window's block index has not moved since the last fetch), for any proof data over
    the arrays `V` whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev r2_0 : Rect S5000x576 := Rect.unit (s := S5000x576) ![0, 0] S5000x576.size inb_S5000x576_S5000x576_0_0
abbrev r2_1 : Rect S576x256 := Rect.unit (s := S576x256) ![0, 0] S576x256.size inb_S576x256_S576x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S128x1 := Rect.unit (s := S128x1) ![0, 0] S128x1.size inb_S128x1_S128x1_0_0
abbrev r2_6 : Rect S1x1 := Rect.unit (s := S1x1) ![0, 0] S1x1.size inb_S1x1_S1x1_0_0
abbrev r2_7 : Rect S5000x1 := Rect.unit (s := S5000x1) ![0, 0] S5000x1.size inb_S5000x1_S5000x1_0_0

/-! ## What the body leaves in the output window's buffer -/

/-- The output window's staging buffer after the body, from the input windows' blocks: its one store as a
    list of pieces (window 0 the edges' features, 1, 3, 5 the weight matrices, 2, 4, 6 the bias rows). -/
def out2_7 (x0 : Vec F S5000x576 .bf16) (x1 : Vec F S576x256 .bf16) (x2 : Vec F S1x256 .f32) (x3 : Vec F S256x128 .bf16) (x4 : Vec F S1x128 .f32) (x5 : Vec F S128x1 .bf16) (x6 : Vec F S1x1 .f32) : Vec F S5000x1 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S5000x1 .f32) (y : S5000x1.Idx) :
    ∃ pc ∈ ([⟨r2_7, p0⟩] : List (View.Piece (Elt F) S5000x1 .f32)), y ∈ pc.1.set :=
  View.cover_of_tiled [⟨r2_7, p0⟩] S5000x1.size (by rfl) y

/-! ## The body's triple -/

set_option maxHeartbeats 4000000 in
/-- The kernel body on whole staging memrefs, the inputs' at contents `xW` and the output's at anything,
    runs to the continuation holding the inputs' as they were and the output's at `out2_7` of the inputs'. -/
theorem sound_kernel2 (c : Dev nD) (E : Set ℕ) (i : grid2.Coords)
    (arg1 : Memref sig .tc .vmem S5000x576 .bf16) (harg1 : arg1.IsWhole)
    (arg2 : Memref sig .tc .vmem S576x256 .bf16) (harg2 : arg2.IsWhole)
    (arg3 : Memref sig .tc .vmem S1x256 .f32) (harg3 : arg3.IsWhole)
    (arg4 : Memref sig .tc .vmem S256x128 .bf16) (harg4 : arg4.IsWhole)
    (arg5 : Memref sig .tc .vmem S1x128 .f32) (harg5 : arg5.IsWhole)
    (arg6 : Memref sig .tc .vmem S128x1 .bf16) (harg6 : arg6.IsWhole)
    (arg7 : Memref sig .tc .vmem S1x1 .f32) (harg7 : arg7.IsWhole)
    (arg8 : Memref sig .tc .vmem S5000x1 .f32) (harg8 : arg8.IsWhole)
    (x0 : Vec F S5000x576 .bf16) (x1 : Vec F S576x256 .bf16) (x2 : Vec F S1x256 .f32) (x3 : Vec F S256x128 .bf16) (x4 : Vec F S1x128 .f32) (x5 : Vec F S128x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point
    `t` each input's buffer at its block and the output's at `out2_7` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The run of the whole program: three kernel regions among four stretches of host operations.

  The TensorCore's buffer contents are followed through @main as a fold from the launch memory
  (`W0` … `W7`): a stretch of host operations applies its operations in order; a region leaves its
  arrays at what its pipeline's write-backs leave (the inputs as entered, the output at the fold of the
  blocks written back) and every other buffer as entered. Each region is one segment whose proof data
  are stated at its entry contents, each stretch one host segment, and the launch over the seven
  segments says: every weakly fair execution terminates, faulting nowhere, and ends with every
  unscoped buffer at the last contents `W7` (`run_all`). No host operation and no region writes an
  argument array, so `W7` at an argument is the launch memory (`W7_keep`), which gives the frame claim.
-/
import proofs.«142010_j70282844831970_1_alg».proof.Proof.K.Reg0
import proofs.«142010_j70282844831970_1_alg».proof.Proof.K.Reg1
import proofs.«142010_j70282844831970_1_alg».proof.Proof.K.Reg2
import proofs.«142010_j70282844831970_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references (what region 0's proof data take). -/
abbrev Vin0 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second stretch of host operations (region 1's entry). -/
abbrev W3 : Dev nD → Valuation τ sig (Elt F) := fun c => StableHlo.after hostOps1 (W2 m c)
abbrev Vin1 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-- After the third stretch of host operations (region 2's entry). -/
abbrev W5 : Dev nD → Valuation τ sig (Elt F) := fun c => StableHlo.after hostOps2 (W4 m c)
abbrev Vin2 : (c : Dev nD) → (b : Ref sig .tc) → Buf (Elt F) ((c : Thread nD τ).loc b) := fun c b => W5 m c b

/-- At region 2's exit: its arrays at what the pipeline leaves (the inputs as entered, the output's write-backs
    folded), every other buffer as entered. -/
def W6 (c : Dev nD) : Valuation τ sig (Elt F) :=
  Pipeline.withArrays spec2 c (W5 m c) fun w => (dat2 (Vin2 m) c).arrAt w cfg2.N
theorem W6_arr (c : Dev nD) (w : Fin cfg2.W) :
    W6 m c (Proc.devRef .tc (Pipeline.arrRef spec2 w)) = (dat2 (Vin2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev Vout2 : (c : Dev nD) → (b : Ref sig .tc) → Buf (Elt F) ((c : Thread nD τ).loc b) := fun c b => W6 m c b
theorem hF2 (c : Dev nD) (w : Fin cfg2.W) : (dat2 (Vin2 m) c).arrAt w cfg2.N = Vout2 m c (Pipeline.arrRef spec2 w) :=
  (W6_arr m c w).symm
theorem hrest2 (c : Dev nD) : ∀ b, b ∉ Finset.univ.image (Pipeline.arrRef spec2) → Vout2 m c b = Vin2 m c b :=
  fun b hb => W6_of_ne m c b fun w e => hb (Finset.mem_image.mpr ⟨w, Finset.mem_univ _, e⟩)

/-- After the last stretch of host operations (the return). -/
abbrev W7 : Dev nD → Valuation τ sig (Elt F) := fun c => StableHlo.after hostOps3 (W6 m c)

/-! ### A buffer that no host operation writes and no region holds ends as launched -/

theorem W7_keep (c : Dev nD) (b : Ref sig .tc) (h0 : b ∉ hostOps0_W) (h1 : b ∉ hostOps1_W) (h2 : b ∉ hostOps2_W) (h3 : b ∉ hostOps3_W)
    (g0 : ∀ w, Pipeline.arrRef spec0 w ≠ b) (g1 : ∀ w, Pipeline.arrRef spec1 w ≠ b) (g2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b g2
    _ = W4 m c (Proc.devRef .tc b) := StableHlo.after_of_writes_sub hostOps2 _ hostOps2_writes h2
    _ = W3 m c (Proc.devRef .tc b) := W4_of_ne m c b g1
    _ = W2 m c (Proc.devRef .tc b) := StableHlo.after_of_writes_sub hostOps1 _ hostOps1_writes h1
    _ = W1 m c (Proc.devRef .tc b) := W2_of_ne m c b g0
    _ = W0 m c (Proc.devRef .tc b) := StableHlo.after_of_writes_sub hostOps0 _ hostOps0_writes h0
    _ = m ((c : Thread nD τ).loc b) := rfl

/-! ## The proof data family and the thread state -/

/-- The prefetched tables' admissible contents: no pipeline has a table. -/
abbrev admF : (p : Fin 3) → (pcfgs (F := F) p).Adm := fun p => (cfgs p).toPCfg_adm
/-- Every pipeline's proof data, each at its region's entry contents. -/
def pd : (p : Fin 3) → (c : Dev nD) → Dat τ (Elt F) Unit ℕ (UR sig nD τ) ℕ (Pipeline.pin (pcfgs (F := F)) admF p) c
  | ⟨0, _⟩ => fun c => dat0 (Vin0 m) c
  | ⟨1, _⟩ => fun c => dat1 (Vin1 m) c
  | ⟨2, _⟩ => fun c => dat2 (Vin2 m) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays
    are split out of the unscoped buffers and put back at the exit contents; the generator register goes into the
    pipeline's invariant and comes out; nothing is owed; the kernel has no semaphore of its own. -/
def reg0 : Pipeline.RegionSeg (pcfgs (F := F)) admF (pd m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LF lvF 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admF (pd m) launch0.win launch0.arr_whole c
      ((pd m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pd m) ((pd m 0 c).share_full fun _ => rfl)
      (Vin0 m c) (Vout0 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays
    are split out of the unscoped buffers and put back at the exit contents; the generator register goes into the
    pipeline's invariant and comes out; nothing is owed; the kernel has no semaphore of its own. -/
def reg1 : Pipeline.RegionSeg (pcfgs (F := F)) admF (pd m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LF lvF 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admF (pd m) launch1.win launch1.arr_whole c
      ((pd m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pd m) ((pd m 1 c).share_full fun _ => rfl)
      (Vin1 m c) (Vout1 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays
    are split out of the unscoped buffers and put back at the exit contents; the generator register goes into the
    pipeline's invariant and comes out; nothing is owed; the kernel has no semaphore of its own. -/
def reg2 : Pipeline.RegionSeg (pcfgs (F := F)) admF (pd m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ LF lvF 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) admF (pd m) launch2.win launch2.arr_whole c
      ((pd m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pd m) ((pd m 2 c).share_full fun _ => rfl)
      (Vin2 m c) (Vout2 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segsF : List (Pipeline.Seg (pcfgs (F := F)) admF (pd m) () defs₀ 𝒱F LF lvF) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segsF m) := (main_chain c).trans (by chain_rfl)

set_option backward.isDefEq.respectTransparency.types false in
/-- THE RUN: at the compiled mesh, from any memory with zero counters, every weakly fair execution of @main on the
    TensorCores terminates, nothing faulting, and every final state has every unscoped buffer at the last contents
    of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admF (pd m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl, fun c =>
      sep_mono .rfl (show Rst c ⊢ (iprop(∃ W, owes (c : Thread nD τ) (0 : CellTallies nD τ sig Unit) W) : sProp 𝕄) from by
        iintro ⟨-, HO⟩; iexact HO)⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (W7_keep m c main_arg0 (by decide) (by decide) (by decide) (by decide) (by decide) (by decide) (by decide)),
    (h c _ (mem_uc main_arg1 (by decide))).trans (W7_keep m c main_arg1 (by decide) (by decide) (by decide) (by decide) (by decide) (by decide) (by decide)),
    (h c _ (mem_uc main_arg2 (by decide))).trans (W7_keep m c main_arg2 (by decide) (by decide) (by decide) (by decide) (by decide) (by decide) (by decide)),
    (h c _ (mem_uc main_arg3 (by decide))).trans (W7_keep m c main_arg3 (by decide) (by decide) (by decide) (by decide) (by decide) (by decide) (by decide)),
    (h c _ (mem_uc main_arg4 (by decide))).trans (W7_keep m c main_arg4 (by decide) (by decide) (by decide) (by decide) (by decide) (by decide) (by decide)),
    (h c _ (mem_uc main_arg5 (by decide))).trans (W7_keep m c main_arg5 (by decide) (by decide) (by decide) (by decide) (by decide) (by decide) (by decide)),
    (h c _ (mem_uc main_arg6 (by decide))).trans (W7_keep m c main_arg6 (by decide) (by decide) (by decide) (by decide) (by decide) (by decide) (by decide)),
    (h c _ (mem_uc main_arg7 (by decide))).trans (W7_keep m c main_arg7 (by decide) (by decide) (by decide) (by decide) (by decide) (by decide) (by decide)),
    (h c _ (mem_uc main_arg8 (by decide))).trans (W7_keep m c main_arg8 (by decide) (by decide) (by decide) (by decide) (by decide) (by decide) (by decide)),
    (h c _ (mem_uc main_arg9 (by decide))).trans (W7_keep m c main_arg9 (by decide) (by decide) (by decide) (by decide) (by decide) (by decide) (by decide)),
    (h c _ (mem_uc main_arg10 (by decide))).trans (W7_keep m c main_arg10 (by decide) (by decide) (by decide) (by decide) (by decide) (by decide) (by decide)),
    (h c _ (mem_uc main_arg11 (by decide))).trans (W7_keep m c main_arg11 (by decide) (by decide) (by decide) (by decide) (by decide) (by decide) (by decide)),
    (h c _ (mem_uc main_arg12 (by decide))).trans (W7_keep m c main_arg12 (by decide) (by decide) (by decide) (by decide) (by decide) (by decide) (by decide)),
    (h c _ (mem_uc main_arg13 (by decide))).trans (W7_keep m c main_arg13 (by decide) (by decide) (by decide) (by decide) (by decide) (by decide) (by decide)),
    (h c _ (mem_uc main_arg14 (by decide))).trans (W7_keep m c main_arg14 (by decide) (by decide) (by decide) (by decide) (by decide) (by decide) (by decide))⟩)
    (run_all m ρ)

end Cert.Kernel.Fr

end
-- ==== Proof.KI.Reg0.lean ====
/-
  Region 0 of the program: the first SAGE layer's kernel, stated at a PARAMETER `V`, the TensorCore's
  buffer contents when the region is entered.

  The kernel has five input windows and one output window on a grid of 10 points. At point `t` the
  row blocks of the two activation arrays (windows 0, 1: rows 5000·t … 5000·t + 4999) and the whole
  of the two weight matrices and of the bias row (windows 2, 3, 4: one block, the same at every
  point) are staged, and the body stores ONE value into the output window's buffer:
  `max (a·Wn + x·Ws + b, 0)` of the staged blocks (the payload `k0_pay1`). So what the output
  buffer holds after the body is that payload of the input blocks (`out0_5`), whatever it held
  before, and every input buffer is left as it was. This is what the pipeline's proof data
  (`dat0`) records, and the body obligation (`body_obligation0`) is the body's triple at a
  generic grid point.
-/
import proofs.«142010_j70282844831970_1_alg».proof.Proof.Gen.KernelIdeal.Launch
import proofs.«142010_j70282844831970_1_alg».proof.Proof.Gen.KernelIdeal.Skeleton
import proofs.«142010_j70282844831970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it
    or not (an unfetched window's block index has not moved since the last fetch), for any proof data over
    the arrays `V` whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_a : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-! ## What the body leaves in the output window's buffer -/

/-- The output window's staging buffer after the body, from the input windows' blocks: its one store as a
    list of pieces (window 0 the aggregated neighbours' rows, 1 the nodes' own rows, 2 and 3 the two weight
    matrices, 4 the bias row). -/
def out0_5 (x0 x1 : Vec F S5000x128 .bf16) (x2 x3 : Vec F S128x256 .bf16) (x4 : Vec F S1x256 .f32) : Vec F S5000x256 .f32 :=
  View.canon [⟨r0_o, k0_pay1 (View.ld x0 r0_a) (View.ld x2 r0_w) (View.ld x1 r0_a) (View.ld x3 r0_w) (View.ld x4 r0_b)⟩]

/-- The one store covers the buffer. -/
theorem cover0_5 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

/-! ## The body's triple -/

set_option maxHeartbeats 4000000 in
/-- The kernel body on whole staging memrefs, the inputs' at contents `xW` and the output's at anything,
    runs to the continuation holding the inputs' as they were and the output's at `out0_5` of the inputs'. -/
theorem sound_kernel0 (c : Dev nD) (E : Set ℕ) (i : grid0.Coords)
    (arg1 : Memref sig .tc .vmem S5000x128 .bf16) (harg1 : arg1.IsWhole) (arg2 : Memref sig .tc .vmem S5000x128 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S1x256 .f32) (harg5 : arg5.IsWhole) (arg6 : Memref sig .tc .vmem S5000x256 .f32) (harg6 : arg6.IsWhole)
    (x0 x1 : Vec F S5000x128 .bf16) (x2 x3 : Vec F S128x256 .bf16) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point
    `t` each input's buffer at its block and the output's at `out0_5` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of the program: the second SAGE layer's kernel, stated at a PARAMETER `V`, the TensorCore's
  buffer contents when the region is entered.

  The kernel has five input windows and one output window on a grid of 10 points. At point `t` the
  row blocks of the two activation arrays (windows 0, 1: rows 5000·t … 5000·t + 4999) and the whole
  of the two weight matrices and of the bias row (windows 2, 3, 4: one block, the same at every
  point) are staged, and the body stores ONE value into the output window's buffer:
  `a·Wn + x·Ws + b` of the staged blocks (the payload `k1_pay1`). So what the output
  buffer holds after the body is that payload of the input blocks (`out1_5`), whatever it held
  before, and every input buffer is left as it was. This is what the pipeline's proof data
  (`dat1`) records, and the body obligation (`body_obligation1`) is the body's triple at a
  generic grid point.
-/
import proofs.«142010_j70282844831970_1_alg».proof.Proof.Gen.KernelIdeal.Launch
import proofs.«142010_j70282844831970_1_alg».proof.Proof.Gen.KernelIdeal.Skeleton
import proofs.«142010_j70282844831970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it
    or not (an unfetched window's block index has not moved since the last fetch), for any proof data over
    the arrays `V` whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_a : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-! ## What the body leaves in the output window's buffer -/

/-- The output window's staging buffer after the body, from the input windows' blocks: its one store as a
    list of pieces (window 0 the aggregated neighbours' rows, 1 the nodes' own rows, 2 and 3 the two weight
    matrices, 4 the bias row). -/
def out1_5 (x0 x1 : Vec F S5000x256 .bf16) (x2 x3 : Vec F S256x256 .bf16) (x4 : Vec F S1x256 .f32) : Vec F S5000x256 .f32 :=
  View.canon [⟨r1_o, k1_pay1 (View.ld x0 r1_a) (View.ld x2 r1_w) (View.ld x1 r1_a) (View.ld x3 r1_w) (View.ld x4 r1_b)⟩]

/-- The one store covers the buffer. -/
theorem cover1_5 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

/-! ## The body's triple -/

set_option maxHeartbeats 4000000 in
/-- The kernel body on whole staging memrefs, the inputs' at contents `xW` and the output's at anything,
    runs to the continuation holding the inputs' as they were and the output's at `out1_5` of the inputs'. -/
theorem sound_kernel1 (c : Dev nD) (E : Set ℕ) (i : grid1.Coords)
    (arg1 : Memref sig .tc .vmem S5000x256 .bf16) (harg1 : arg1.IsWhole) (arg2 : Memref sig .tc .vmem S5000x256 .bf16) (harg2 : arg2.IsWhole)
    (arg3 : Memref sig .tc .vmem S256x256 .bf16) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .bf16) (x2 x3 : Vec F S256x256 .bf16) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point
    `t` each input's buffer at its block and the output's at `out1_5` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2 of the program: the edge classifier's kernel, stated at a PARAMETER `V`, the TensorCore's
  buffer contents when the region is entered.

  The kernel has seven input windows and one output window on a grid of 80 points. At point `t` the
  row block of the edges' concatenated features (window 0: rows 5000·t … 5000·t + 4999, 576 columns)
  and the whole of the three weight matrices and three bias rows (windows 1 … 6: one block each, the
  same at every point) are staged, and the body stores ONE value into the output window's buffer:
  the three-layer perceptron `max (max (x·W1 + b1, 0)·W2 + b2, 0)·W3 + b3` of the staged blocks (the
  payload `k2_pay1`). So what the output buffer holds after the body is that payload of the input
  blocks (`out2_7`), whatever it held before, and every input buffer is left as it was. This is what
  the pipeline's proof data (`dat2`) records, and the body obligation (`body_obligation2`) is the
  body's triple at a generic grid point.
-/
import proofs.«142010_j70282844831970_1_alg».proof.Proof.Gen.KernelIdeal.Launch
import proofs.«142010_j70282844831970_1_alg».proof.Proof.Gen.KernelIdeal.Skeleton
import proofs.«142010_j70282844831970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it
    or not (an unfetched window's block index has not moved since the last fetch), for any proof data over
    the arrays `V` whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev r2_0 : Rect S5000x576 := Rect.unit (s := S5000x576) ![0, 0] S5000x576.size inb_S5000x576_S5000x576_0_0
abbrev r2_1 : Rect S576x256 := Rect.unit (s := S576x256) ![0, 0] S576x256.size inb_S576x256_S576x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S128x1 := Rect.unit (s := S128x1) ![0, 0] S128x1.size inb_S128x1_S128x1_0_0
abbrev r2_6 : Rect S1x1 := Rect.unit (s := S1x1) ![0, 0] S1x1.size inb_S1x1_S1x1_0_0
abbrev r2_7 : Rect S5000x1 := Rect.unit (s := S5000x1) ![0, 0] S5000x1.size inb_S5000x1_S5000x1_0_0

/-! ## What the body leaves in the output window's buffer -/

/-- The output window's staging buffer after the body, from the input windows' blocks: its one store as a
    list of pieces (window 0 the edges' features, 1, 3, 5 the weight matrices, 2, 4, 6 the bias rows). -/
def out2_7 (x0 : Vec F S5000x576 .bf16) (x1 : Vec F S576x256 .bf16) (x2 : Vec F S1x256 .f32) (x3 : Vec F S256x128 .bf16) (x4 : Vec F S1x128 .f32) (x5 : Vec F S128x1 .bf16) (x6 : Vec F S1x1 .f32) : Vec F S5000x1 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S5000x1 .f32) (y : S5000x1.Idx) :
    ∃ pc ∈ ([⟨r2_7, p0⟩] : List (View.Piece (Elt F) S5000x1 .f32)), y ∈ pc.1.set :=
  View.cover_of_tiled [⟨r2_7, p0⟩] S5000x1.size (by rfl) y

/-! ## The body's triple -/

set_option maxHeartbeats 4000000 in
/-- The kernel body on whole staging memrefs, the inputs' at contents `xW` and the output's at anything,
    runs to the continuation holding the inputs' as they were and the output's at `out2_7` of the inputs'. -/
theorem sound_kernel2 (c : Dev nD) (E : Set ℕ) (i : grid2.Coords)
    (arg1 : Memref sig .tc .vmem S5000x576 .bf16) (harg1 : arg1.IsWhole)
    (arg2 : Memref sig .tc .vmem S576x256 .bf16) (harg2 : arg2.IsWhole)
    (arg3 : Memref sig .tc .vmem S1x256 .f32) (harg3 : arg3.IsWhole)
    (arg4 : Memref sig .tc .vmem S256x128 .bf16) (harg4 : arg4.IsWhole)
    (arg5 : Memref sig .tc .vmem S1x128 .f32) (harg5 : arg5.IsWhole)
    (arg6 : Memref sig .tc .vmem S128x1 .bf16) (harg6 : arg6.IsWhole)
    (arg7 : Memref sig .tc .vmem S1x1 .f32) (harg7 : arg7.IsWhole)
    (arg8 : Memref sig .tc .vmem S5000x1 .f32) (harg8 : arg8.IsWhole)
    (x0 : Vec F S5000x576 .bf16) (x1 : Vec F S576x256 .bf16) (x2 : Vec F S1x256 .f32) (x3 : Vec F S256x128 .bf16) (x4 : Vec F S1x128 .f32) (x5 : Vec F S128x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point
    `t` each input's buffer at its block and the output's at `out2_7` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The run of the whole program: three kernel regions among four stretches of host operations.

  The TensorCore's buffer contents are followed through @main as a fold from the launch memory
  (`W0` … `W7`): a stretch of host operations applies its operations in order; a region leaves its
  arrays at what its pipeline's write-backs leave (the inputs as entered, the output at the fold of the
  blocks written back) and every other buffer as entered. Each region is one segment whose proof data
  are stated at its entry contents, each stretch one host segment, and the launch over the seven
  segments says: every weakly fair execution terminates, faulting nowhere, and ends with every
  unscoped buffer at the last contents `W7` (`run_all`). No host operation and no region writes an
  argument array, so `W7` at an argument is the launch memory (`W7_keep`), which gives the frame claim.
-/
import proofs.«142010_j70282844831970_1_alg».proof.Proof.KI.Reg0
import proofs.«142010_j70282844831970_1_alg».proof.Proof.KI.Reg1
import proofs.«142010_j70282844831970_1_alg».proof.Proof.KI.Reg2
import proofs.«142010_j70282844831970_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references (what region 0's proof data take). -/
abbrev Vin0 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second stretch of host operations (region 1's entry). -/
abbrev W3 : Dev nD → Valuation τ sig (Elt F) := fun c => StableHlo.after hostOps1 (W2 m c)
abbrev Vin1 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-- After the third stretch of host operations (region 2's entry). -/
abbrev W5 : Dev nD → Valuation τ sig (Elt F) := fun c => StableHlo.after hostOps2 (W4 m c)
abbrev Vin2 : (c : Dev nD) → (b : Ref sig .tc) → Buf (Elt F) ((c : Thread nD τ).loc b) := fun c b => W5 m c b

/-- At region 2's exit: its arrays at what the pipeline leaves (the inputs as entered, the output's write-backs
    folded), every other buffer as entered. -/
def W6 (c : Dev nD) : Valuation τ sig (Elt F) :=
  Pipeline.withArrays spec2 c (W5 m c) fun w => (dat2 (Vin2 m) c).arrAt w cfg2.N
theorem W6_arr (c : Dev nD) (w : Fin cfg2.W) :
    W6 m c (Proc.devRef .tc (Pipeline.arrRef spec2 w)) = (dat2 (Vin2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev Vout2 : (c : Dev nD) → (b : Ref sig .tc) → Buf (Elt F) ((c : Thread nD τ).loc b) := fun c b => W6 m c b
theorem hF2 (c : Dev nD) (w : Fin cfg2.W) : (dat2 (Vin2 m) c).arrAt w cfg2.N = Vout2 m c (Pipeline.arrRef spec2 w) :=
  (W6_arr m c w).symm
theorem hrest2 (c : Dev nD) : ∀ b, b ∉ Finset.univ.image (Pipeline.arrRef spec2) → Vout2 m c b = Vin2 m c b :=
  fun b hb => W6_of_ne m c b fun w e => hb (Finset.mem_image.mpr ⟨w, Finset.mem_univ _, e⟩)

/-- After the last stretch of host operations (the return). -/
abbrev W7 : Dev nD → Valuation τ sig (Elt F) := fun c => StableHlo.after hostOps3 (W6 m c)

/-! ### A buffer that no host operation writes and no region holds ends as launched -/

theorem W7_keep (c : Dev nD) (b : Ref sig .tc) (h0 : b ∉ hostOps0_W) (h1 : b ∉ hostOps1_W) (h2 : b ∉ hostOps2_W) (h3 : b ∉ hostOps3_W)
    (g0 : ∀ w, Pipeline.arrRef spec0 w ≠ b) (g1 : ∀ w, Pipeline.arrRef spec1 w ≠ b) (g2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b g2
    _ = W4 m c (Proc.devRef .tc b) := StableHlo.after_of_writes_sub hostOps2 _ hostOps2_writes h2
    _ = W3 m c (Proc.devRef .tc b) := W4_of_ne m c b g1
    _ = W2 m c (Proc.devRef .tc b) := StableHlo.after_of_writes_sub hostOps1 _ hostOps1_writes h1
    _ = W1 m c (Proc.devRef .tc b) := W2_of_ne m c b g0
    _ = W0 m c (Proc.devRef .tc b) := StableHlo.after_of_writes_sub hostOps0 _ hostOps0_writes h0
    _ = m ((c : Thread nD τ).loc b) := rfl

/-! ## The proof data family and the thread state -/

/-- The prefetched tables' admissible contents: no pipeline has a table. -/
abbrev admF : (p : Fin 3) → (pcfgs (F := F) p).Adm := fun p => (cfgs p).toPCfg_adm
/-- Every pipeline's proof data, each at its region's entry contents. -/
def pd : (p : Fin 3) → (c : Dev nD) → Dat τ (Elt F) Unit ℕ (UR sig nD τ) ℕ (Pipeline.pin (pcfgs (F := F)) admF p) c
  | ⟨0, _⟩ => fun c => dat0 (Vin0 m) c
  | ⟨1, _⟩ => fun c => dat1 (Vin1 m) c
  | ⟨2, _⟩ => fun c => dat2 (Vin2 m) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays
    are split out of the unscoped buffers and put back at the exit contents; the generator register goes into the
    pipeline's invariant and comes out; nothing is owed; the kernel has no semaphore of its own. -/
def reg0 : Pipeline.RegionSeg (pcfgs (F := F)) admF (pd m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LF lvF 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admF (pd m) launch0.win launch0.arr_whole c
      ((pd m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pd m) ((pd m 0 c).share_full fun _ => rfl)
      (Vin0 m c) (Vout0 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays
    are split out of the unscoped buffers and put back at the exit contents; the generator register goes into the
    pipeline's invariant and comes out; nothing is owed; the kernel has no semaphore of its own. -/
def reg1 : Pipeline.RegionSeg (pcfgs (F := F)) admF (pd m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LF lvF 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admF (pd m) launch1.win launch1.arr_whole c
      ((pd m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pd m) ((pd m 1 c).share_full fun _ => rfl)
      (Vin1 m c) (Vout1 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays
    are split out of the unscoped buffers and put back at the exit contents; the generator register goes into the
    pipeline's invariant and comes out; nothing is owed; the kernel has no semaphore of its own. -/
def reg2 : Pipeline.RegionSeg (pcfgs (F := F)) admF (pd m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ LF lvF 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) admF (pd m) launch2.win launch2.arr_whole c
      ((pd m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pd m) ((pd m 2 c).share_full fun _ => rfl)
      (Vin2 m c) (Vout2 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segsF : List (Pipeline.Seg (pcfgs (F := F)) admF (pd m) () defs₀ 𝒱F LF lvF) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segsF m) := (main_chain c).trans (by chain_rfl)

set_option backward.isDefEq.respectTransparency.types false in
/-- THE RUN: at the compiled mesh, from any memory with zero counters, every weakly fair execution of @main on the
    TensorCores terminates, nothing faulting, and every final state has every unscoped buffer at the last contents
    of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admF (pd m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl, fun c =>
      sep_mono .rfl (show Rst c ⊢ (iprop(∃ W, owes (c : Thread nD τ) (0 : CellTallies nD τ sig Unit) W) : sProp 𝕄) from by
        iintro ⟨-, HO⟩; iexact HO)⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (W7_keep m c main_arg0 (by decide) (by decide) (by decide) (by decide) (by decide) (by decide) (by decide)),
    (h c _ (mem_uc main_arg1 (by decide))).trans (W7_keep m c main_arg1 (by decide) (by decide) (by decide) (by decide) (by decide) (by decide) (by decide)),
    (h c _ (mem_uc main_arg2 (by decide))).trans (W7_keep m c main_arg2 (by decide) (by decide) (by decide) (by decide) (by decide) (by decide) (by decide)),
    (h c _ (mem_uc main_arg3 (by decide))).trans (W7_keep m c main_arg3 (by decide) (by decide) (by decide) (by decide) (by decide) (by decide) (by decide)),
    (h c _ (mem_uc main_arg4 (by decide))).trans (W7_keep m c main_arg4 (by decide) (by decide) (by decide) (by decide) (by decide) (by decide) (by decide)),
    (h c _ (mem_uc main_arg5 (by decide))).trans (W7_keep m c main_arg5 (by decide) (by decide) (by decide) (by decide) (by decide) (by decide) (by decide)),
    (h c _ (mem_uc main_arg6 (by decide))).trans (W7_keep m c main_arg6 (by decide) (by decide) (by decide) (by decide) (by decide) (by decide) (by decide)),
    (h c _ (mem_uc main_arg7 (by decide))).trans (W7_keep m c main_arg7 (by decide) (by decide) (by decide) (by decide) (by decide) (by decide) (by decide)),
    (h c _ (mem_uc main_arg8 (by decide))).trans (W7_keep m c main_arg8 (by decide) (by decide) (by decide) (by decide) (by decide) (by decide) (by decide)),
    (h c _ (mem_uc main_arg9 (by decide))).trans (W7_keep m c main_arg9 (by decide) (by decide) (by decide) (by decide) (by decide) (by decide) (by decide)),
    (h c _ (mem_uc main_arg10 (by decide))).trans (W7_keep m c main_arg10 (by decide) (by decide) (by decide) (by decide) (by decide) (by decide) (by decide)),
    (h c _ (mem_uc main_arg11 (by decide))).trans (W7_keep m c main_arg11 (by decide) (by decide) (by decide) (by decide) (by decide) (by decide) (by decide)),
    (h c _ (mem_uc main_arg12 (by decide))).trans (W7_keep m c main_arg12 (by decide) (by decide) (by decide) (by decide) (by decide) (by decide) (by decide)),
    (h c _ (mem_uc main_arg13 (by decide))).trans (W7_keep m c main_arg13 (by decide) (by decide) (by decide) (by decide) (by decide) (by decide) (by decide)),
    (h c _ (mem_uc main_arg14 (by decide))).trans (W7_keep m c main_arg14 (by decide) (by decide) (by decide) (by decide) (by decide) (by decide) (by decide))⟩)
    (run_all m ρ)

end Cert.KernelIdeal.Fr

end
-- ==== Proof.LibNary3.lean ====
/-
  An operation of three operands given as a literal family: its result with each operand's contents at its own
  reference.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references `![x, a, b]`: its function at the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.Val.Pay.lean ====
import proofs.«142010_j70282844831970_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The values the three kernel bodies store, read at an index over the extended reals: each is a
    chain of matrix products into a zero accumulator, sums, a broadcast row and maxima with zero. -/

noncomputable section

namespace Cert.KernelIdeal.Val

open Cert.KernelIdeal Cert.KernelIdeal.Gen Idealize.ShloMosaic Idealize.ShloMosaic.ValueIdx

/-! ### The [5000,128] × [128,256] product -/

theorem lhs0_128_256 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_128_256 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
theorem rhs0_128_256 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
theorem rhs1_128_256 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl
/-- The product into a zero accumulator at (p, q) is the sum over k of a(p,k) · b(k,q). -/
theorem mm_128_256_apply (a : FVec Ideal S5000x128 .bf16) (b : FVec Ideal S128x256 .bf16) (p : Fin 5000) (q : Fin 256) :
    matmul dot_S5000x128_S128x256_S5000x256_1_0_0_1_n_n none a b (constant S5000x256 .f32 0x00000000#32) (ix2 p q) = ∑ k : Fin 128, a (ix2 p k) * b (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun x => Fin.ext (by
    match x with
    | ⟨0, _⟩ => exact lhs0_128_256 _ _
    | ⟨1, _⟩ => exact (lhs1_128_256 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun x => Fin.ext (by
    match x with
    | ⟨0, _⟩ => exact (rhs0_128_256 _ _).trans hk
    | ⟨1, _⟩ => exact rhs1_128_256 _ _)
  rw [el, er]

/-! ### The [5000,256] × [256,256] product -/

theorem lhs0_256_256 (i : S5000x256.Idx) (c : dot_S5000x256_S256x256_S5000x256_1_0_0_1_n_n.contr.Idx) :
    (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs1_256_256 (i : S5000x256.Idx) (c : dot_S5000x256_S256x256_S5000x256_1_0_0_1_n_n.contr.Idx) :
    (dot_S5000x256_S256x256_S5000x256_1_0_0_1_n_n.lhsIdx i c 1).val = (c ⟨0, by decide⟩).val :=
  dot_S5000x256_S256x256_S5000x256_1_0_0_1_n_n.lhsIdx_val_of_single rfl i c
theorem rhs0_256_256 (i : S5000x256.Idx) (c : dot_S5000x256_S256x256_S5000x256_1_0_0_1_n_n.contr.Idx) :
    (dot_S5000x256_S256x256_S5000x256_1_0_0_1_n_n.rhsIdx i c 0).val = (c ⟨0, by decide⟩).val :=
  dot_S5000x256_S256x256_S5000x256_1_0_0_1_n_n.rhsIdx_val_of_single rfl i c
theorem rhs1_256_256 (i : S5000x256.Idx) (c : dot_S5000x256_S256x256_S5000x256_1_0_0_1_n_n.contr.Idx) :
    (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl
/-- The product into a zero accumulator at (p, q) is the sum over k of a(p,k) · b(k,q). -/
theorem mm_256_256_apply (a : FVec Ideal S5000x256 .bf16) (b : FVec Ideal S256x256 .bf16) (p : Fin 5000) (q : Fin 256) :
    matmul dot_S5000x256_S256x256_S5000x256_1_0_0_1_n_n none a b (constant S5000x256 .f32 0x00000000#32) (ix2 p q) = ∑ k : Fin 256, a (ix2 p k) * b (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun x => Fin.ext (by
    match x with
    | ⟨0, _⟩ => exact lhs0_256_256 _ _
    | ⟨1, _⟩ => exact (lhs1_256_256 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun x => Fin.ext (by
    match x with
    | ⟨0, _⟩ => exact (rhs0_256_256 _ _).trans hk
    | ⟨1, _⟩ => exact rhs1_256_256 _ _)
  rw [el, er]

/-! ### The [5000,576] × [576,256] product -/

theorem lhs0_576_256 (i : S5000x256.Idx) (c : dot_S5000x576_S576x256_S5000x256_1_0_0_1_n_n.contr.Idx) :
    (dot_S5000x576_S576x256_S5000x256_1_0_0_1_n_n.lhsIdx i c 0).val = (i 0).val := by
  unfold DotDims.lhsIdx
  rw [dif_neg (show ¬(0 : Fin S5000x576.rank) ∈ dot_S5000x576_S576x256_S5000x256_1_0_0_1_n_n.lhsBatch by decide), dif_pos (show (0 : Fin S5000x576.rank) ∈ dot_S5000x576_S576x256_S5000x256_1_0_0_1_n_n.lhsNonContracting by decide)]
  rfl
theorem lhs1_576_256 (i : S5000x256.Idx) (c : dot_S5000x576_S576x256_S5000x256_1_0_0_1_n_n.contr.Idx) :
    (dot_S5000x576_S576x256_S5000x256_1_0_0_1_n_n.lhsIdx i c 1).val = (c ⟨0, by decide⟩).val :=
  dot_S5000x576_S576x256_S5000x256_1_0_0_1_n_n.lhsIdx_val_of_single rfl i c
theorem rhs0_576_256 (i : S5000x256.Idx) (c : dot_S5000x576_S576x256_S5000x256_1_0_0_1_n_n.contr.Idx) :
    (dot_S5000x576_S576x256_S5000x256_1_0_0_1_n_n.rhsIdx i c 0).val = (c ⟨0, by decide⟩).val :=
  dot_S5000x576_S576x256_S5000x256_1_0_0_1_n_n.rhsIdx_val_of_single rfl i c
theorem rhs1_576_256 (i : S5000x256.Idx) (c : dot_S5000x576_S576x256_S5000x256_1_0_0_1_n_n.contr.Idx) :
    (dot_S5000x576_S576x256_S5000x256_1_0_0_1_n_n.rhsIdx i c 1).val = (i 1).val := by
  unfold DotDims.rhsIdx
  rw [dif_neg (show ¬(1 : Fin S576x256.rank) ∈ dot_S5000x576_S576x256_S5000x256_1_0_0_1_n_n.rhsBatch by decide), dif_pos (show (1 : Fin S576x256.rank) ∈ dot_S5000x576_S576x256_S5000x256_1_0_0_1_n_n.rhsNonContracting by decide)]
  rfl
/-- The product into a zero accumulator at (p, q) is the sum over k of a(p,k) · b(k,q). -/
theorem mm_576_256_apply (a : FVec Ideal S5000x576 .bf16) (b : FVec Ideal S576x256 .bf16) (p : Fin 5000) (q : Fin 256) :
    matmul dot_S5000x576_S576x256_S5000x256_1_0_0_1_n_n none a b (constant S5000x256 .f32 0x00000000#32) (ix2 p q) = ∑ k : Fin 576, a (ix2 p k) * b (ix2 k q) := by
  simp only [matmul]
  rw [Ideal.matmul_constant_zero_apply, ← Equiv.sum_comp (contrEquiv1 dot_S5000x576_S576x256_S5000x256_1_0_0_1_n_n 576 rfl rfl).symm]
  refine Finset.sum_congr rfl fun k _ => ?_
  have hk := contrEquiv1_symm_val dot_S5000x576_S576x256_S5000x256_1_0_0_1_n_n 576 rfl rfl k
  have el : dot_S5000x576_S576x256_S5000x256_1_0_0_1_n_n.lhsIdx (ix2 p q) ((contrEquiv1 dot_S5000x576_S576x256_S5000x256_1_0_0_1_n_n 576 rfl rfl).symm k) = ix2 p k := funext fun x => Fin.ext (by
    match x with
    | ⟨0, _⟩ => exact lhs0_576_256 _ _
    | ⟨1, _⟩ => exact (lhs1_576_256 _ _).trans hk)
  have er : dot_S5000x576_S576x256_S5000x256_1_0_0_1_n_n.rhsIdx (ix2 p q) ((contrEquiv1 dot_S5000x576_S576x256_S5000x256_1_0_0_1_n_n 576 rfl rfl).symm k) = ix2 k q := funext fun x => Fin.ext (by
    match x with
    | ⟨0, _⟩ => exact (rhs0_576_256 _ _).trans hk
    | ⟨1, _⟩ => exact rhs1_576_256 _ _)
  rw [el, er]

/-! ### The [5000,256] × [256,128] product -/

theorem lhs0_256_128 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs1_256_128 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
theorem rhs0_256_128 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
theorem rhs1_256_128 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl
/-- The product into a zero accumulator at (p, q) is the sum over k of a(p,k) · b(k,q). -/
theorem mm_256_128_apply (a : FVec Ideal S5000x256 .bf16) (b : FVec Ideal S256x128 .bf16) (p : Fin 5000) (q : Fin 128) :
    matmul dot_S5000x256_S256x128_S5000x128_1_0_0_1_n_n none a b (constant S5000x128 .f32 0x00000000#32) (ix2 p q) = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun x => Fin.ext (by
    match x with
    | ⟨0, _⟩ => exact lhs0_256_128 _ _
    | ⟨1, _⟩ => exact (lhs1_256_128 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun x => Fin.ext (by
    match x with
    | ⟨0, _⟩ => exact (rhs0_256_128 _ _).trans hk
    | ⟨1, _⟩ => exact rhs1_256_128 _ _)
  rw [el, er]

/-! ### The [5000,128] × [128,1] product -/

theorem lhs0_128_1 (i : S5000x1.Idx) (c : dot_S5000x128_S128x1_S5000x1_1_0_0_1_n_n.contr.Idx) :
    (dot_S5000x128_S128x1_S5000x1_1_0_0_1_n_n.lhsIdx i c 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs1_128_1 (i : S5000x1.Idx) (c : dot_S5000x128_S128x1_S5000x1_1_0_0_1_n_n.contr.Idx) :
    (dot_S5000x128_S128x1_S5000x1_1_0_0_1_n_n.lhsIdx i c 1).val = (c ⟨0, by decide⟩).val :=
  dot_S5000x128_S128x1_S5000x1_1_0_0_1_n_n.lhsIdx_val_of_single rfl i c
theorem rhs0_128_1 (i : S5000x1.Idx) (c : dot_S5000x128_S128x1_S5000x1_1_0_0_1_n_n.contr.Idx) :
    (dot_S5000x128_S128x1_S5000x1_1_0_0_1_n_n.rhsIdx i c 0).val = (c ⟨0, by decide⟩).val :=
  dot_S5000x128_S128x1_S5000x1_1_0_0_1_n_n.rhsIdx_val_of_single rfl i c
theorem rhs1_128_1 (i : S5000x1.Idx) (c : dot_S5000x128_S128x1_S5000x1_1_0_0_1_n_n.contr.Idx) :
    (dot_S5000x128_S128x1_S5000x1_1_0_0_1_n_n.rhsIdx i c 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl
/-- The product into a zero accumulator at (p, q) is the sum over k of a(p,k) · b(k,q). -/
theorem mm_128_1_apply (a : FVec Ideal S5000x128 .bf16) (b : FVec Ideal S128x1 .bf16) (p : Fin 5000) (q : Fin 1) :
    matmul dot_S5000x128_S128x1_S5000x1_1_0_0_1_n_n none a b (constant S5000x1 .f32 0x00000000#32) (ix2 p q) = ∑ k : Fin 128, a (ix2 p k) * b (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun x => Fin.ext (by
    match x with
    | ⟨0, _⟩ => exact lhs0_128_1 _ _
    | ⟨1, _⟩ => exact (lhs1_128_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun x => Fin.ext (by
    match x with
    | ⟨0, _⟩ => exact (rhs0_128_1 _ _).trans hk
    | ⟨1, _⟩ => exact rhs1_128_1 _ _)
  rw [el, er]

/-- The scalar constant with all bits clear is zero. -/
theorem zero_f32 : (Scalar.ofBits (F := Ideal) .f32 0x00000000#32 : EReal) = 0 := Ideal.ofBits_zero_f32

/-- A [1,256] row broadcast over 5000 rows reads the row at the column. -/
theorem row256_apply (r : FVec Ideal S1x256 .f32) (p : Fin 5000) (q : Fin 256) :
    broadcastTo S5000x256 r broadcasts_S1x256_S5000x256 (ix2 p q) = r (ix2 (0 : Fin 1) q) :=
  broadcastTo_apply r broadcasts_S1x256_S5000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- A [1,128] row broadcast over 5000 rows reads the row at the column. -/
theorem row128_apply (r : FVec Ideal S1x128 .f32) (p : Fin 5000) (q : Fin 128) :
    broadcastTo S5000x128 r broadcasts_S1x128_S5000x128 (ix2 p q) = r (ix2 (0 : Fin 1) q) :=
  broadcastTo_apply r broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- A [1,1] value broadcast over 5000 rows reads the one element. -/
theorem row1_apply (r : FVec Ideal S1x1 .f32) (p : Fin 5000) (q : Fin 1) :
    broadcastTo S5000x1 r broadcasts_S1x1_S5000x1 (ix2 p q) = r (ix2 (0 : Fin 1) (0 : Fin 1)) :=
  broadcastTo_apply r broadcasts_S1x1_S5000x1 (ix2 p q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-! ### The first body -/

theorem pay0_apply (v0 v5 : FVec Ideal S5000x128 .bf16) (v2 v7 : FVec Ideal S128x256 .bf16) (v11 : FVec Ideal S1x256 .f32) (p : Fin 5000) (q : Fin 256) :
    k0_pay1 (F := Ideal) v0 v2 v5 v7 v11 (ix2 p q) = max (((∑ k : Fin 128, v0 (ix2 p k) * v2 (ix2 k q)) + (∑ k : Fin 128, v5 (ix2 p k) * v7 (ix2 k q))) + v11 (ix2 (0 : Fin 1) q)) (0 : EReal) := by
  unfold k0_pay1
  simp only [shapeCast_self]
  rw [maximumf_apply, addf_apply, addf_apply, mm_128_256_apply, mm_128_256_apply, row256_apply, broadcast_apply, zero_f32]

/-! ### The second body -/

theorem pay1_apply (v0 v5 : FVec Ideal S5000x256 .bf16) (v2 v7 : FVec Ideal S256x256 .bf16) (v11 : FVec Ideal S1x256 .f32) (p : Fin 5000) (q : Fin 256) :
    k1_pay1 (F := Ideal) v0 v2 v5 v7 v11 (ix2 p q) = ((∑ k : Fin 256, v0 (ix2 p k) * v2 (ix2 k q)) + (∑ k : Fin 256, v5 (ix2 p k) * v7 (ix2 k q))) + v11 (ix2 (0 : Fin 1) q) := by
  unfold k1_pay1
  simp only [shapeCast_self]
  rw [addf_apply, addf_apply, mm_256_256_apply, mm_256_256_apply, row256_apply]

/-! ### The third body -/

theorem pay2_apply (v0 : FVec Ideal S5000x576 .bf16) (v2 : FVec Ideal S576x256 .bf16) (v5 : FVec Ideal S1x256 .f32) (v12 : FVec Ideal S256x128 .bf16) (v15 : FVec Ideal S1x128 .f32) (v22 : FVec Ideal S128x1 .bf16) (v25 : FVec Ideal S1x1 .f32) (p : Fin 5000) (q : Fin 1) :
    k2_pay1 (F := Ideal) v0 v2 v5 v12 v15 v22 v25 (ix2 p q) = (∑ k3 : Fin 128, max ((∑ k2 : Fin 256, max ((∑ k1 : Fin 576, v0 (ix2 p k1) * v2 (ix2 k1 k2)) + v5 (ix2 (0 : Fin 1) k2)) (0 : EReal) * v12 (ix2 k2 k3)) + v15 (ix2 (0 : Fin 1) k3)) (0 : EReal) * v22 (ix2 k3 q)) + v25 (ix2 (0 : Fin 1) (0 : Fin 1)) := by
  unfold k2_pay1
  simp only [shapeCast_self]
  rw [addf_apply, mm_128_1_apply, row1_apply]
  refine congrArg (· + v25 (ix2 (0 : Fin 1) (0 : Fin 1))) (Finset.sum_congr rfl fun k3 _ => ?_)
  rw [truncf_apply, maximumf_apply, addf_apply, mm_256_128_apply, row128_apply, broadcast_apply, zero_f32]
  refine congrArg (fun s => max (s + v15 (ix2 (0 : Fin 1) k3)) (0 : EReal) * v22 (ix2 k3 q)) (Finset.sum_congr rfl fun k2 _ => ?_)
  rw [truncf_apply, maximumf_apply, addf_apply, mm_576_256_apply, row256_apply, broadcast_apply]

end Cert.KernelIdeal.Val
-- ==== Proof.Val.Blocks.lean ====
/-
  From blocks to arrays, for the three regions of the program.

  Each region's kernel runs on a one-axis grid; at grid point `t` the activation windows hold rows
  5000·t … 5000·t + 4999 of their arrays, the weight and bias windows hold their whole arrays, and the
  output window's block (rows 5000·t … 5000·t + 4999 of the output array) receives the body's payload
  of the staged blocks. Stated here, region by region:

  * every input block read at an index is the array read at the corresponding index (row 5000·t + p for a
    moving window, the same index for a whole window);
  * the output array after the region, at row 5000·t + p, is the payload of the blocks of grid point `t`
    at row p: the blocks' rows partition the array's rows, row r lying in the block of point r / 5000 at
    row r % 5000.
-/
import proofs.«142010_j70282844831970_1_alg».proof.Proof.KI.Reg0
import proofs.«142010_j70282844831970_1_alg».proof.Proof.KI.Reg1
import proofs.«142010_j70282844831970_1_alg».proof.Proof.KI.Reg2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable {F : FTy → Type} [FloatOps F]

variable (V : (c : Dev nD) → (b : Ref sig .tc) → Buf (Elt F) ((c : Thread nD τ).loc b))

/-- Zero offsets on both axes. -/
theorem zero_offsets : (![0, 0] : Fin 2 → Nat) = fun _ => 0 := funext fun a => by fin_cases a <;> rfl

/-! ## Region 0 -/

/-- The block indices of region 0's windows at grid point `t`: the two activation windows and the output window sit at block row `t`, the weight and bias windows at block zero. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is a row of the 50000-row arrays. -/
theorem row_lt0 (t : Fin cfg0.N) (p : Fin 5000) : 5000 * t.val + p.val < 50000 := by
  have h : t.val < 10 := lt_of_lt_of_eq t.isLt N_0
  have := p.isLt; omega

/-- The grid point whose block holds row `r`. -/
def pt0 (r : Fin 50000) : Fin cfg0.N := ⟨r.val / 5000, lt_of_lt_of_eq (by have := r.isLt; omega) N_0.symm⟩

theorem pt0_val (r : Fin 50000) : (pt0 r).val = r.val / 5000 := rfl

/-- Row `r`'s place inside its block. -/
def rowIn0 (r : Fin 50000) : Fin 5000 := ⟨r.val % 5000, Nat.mod_lt _ (by decide)⟩

theorem rowIn0_val (r : Fin 50000) : (rowIn0 r).val = r.val % 5000 := rfl

/-- Window 0's block at point `t` is rows 5000·t … 5000·t + 4999 of the aggregated neighbours' array. -/
theorem iblk0_0_apply (c : Dev nD) (t : Fin cfg0.N) (p : Fin 5000) (k : Fin 128) :
    iblk0 V c 0 t (ix2 p k) = V c main_v22 (ix2 ⟨5000 * t.val + p.val, row_lt0 t p⟩ k) := by
  obtain ⟨e0, e1, -⟩ := index0 t
  unfold iblk0
  rw [View.read_apply]
  show V c main_v22 _ = V c main_v22 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Window 1's block at point `t` is rows 5000·t … 5000·t + 4999 of the nodes' own array. -/
theorem iblk0_1_apply (c : Dev nD) (t : Fin cfg0.N) (p : Fin 5000) (k : Fin 128) :
    iblk0 V c 1 t (ix2 p k) = V c main_v23 (ix2 ⟨5000 * t.val + p.val, row_lt0 t p⟩ k) := by
  obtain ⟨-, -, e0, e1, -⟩ := index0 t
  unfold iblk0
  rw [View.read_apply]
  show V c main_v23 _ = V c main_v23 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- Window 2's block at every point is the whole of the weight matrix the neighbours' rows are multiplied by. -/
theorem iblk0_2_apply (c : Dev nD) (t : Fin cfg0.N) (k : Fin 128) (q : Fin 256) :
    iblk0 V c 2 t (ix2 k q) = V c main_v24 (ix2 k q) := by
  obtain ⟨-, -, -, -, e0, e1, -⟩ := index0 t
  unfold iblk0
  rw [View.read_apply]
  show V c main_v24 _ = V c main_v24 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- Window 3's block at every point is the whole of the weight matrix the nodes' own rows are multiplied by. -/
theorem iblk0_3_apply (c : Dev nD) (t : Fin cfg0.N) (k : Fin 128) (q : Fin 256) :
    iblk0 V c 3 t (ix2 k q) = V c main_v25 (ix2 k q) := by
  obtain ⟨-, -, -, -, -, -, e0, e1, -⟩ := index0 t
  unfold iblk0
  rw [View.read_apply]
  show V c main_v25 _ = V c main_v25 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- Window 4's block at every point is the whole of the bias row. -/
theorem iblk0_4_apply (c : Dev nD) (t : Fin cfg0.N) (k : Fin 1) (q : Fin 256) :
    iblk0 V c 4 t (ix2 k q) = V c main_v26 (ix2 k q) := by
  obtain ⟨-, -, -, -, -, -, -, -, e0, e1, -⟩ := index0 t
  unfold iblk0
  rw [View.read_apply]
  show V c main_v26 _ = V c main_v26 _
  congr 1
  funext a
  apply Fin.ext
  match a with
  | ⟨0, _⟩ => show win0_4.index t (0 : Fin 2) * 1 + 1 * k.val = k.val; rw [e0]; omega
  | ⟨1, _⟩ => show win0_4.index t (1 : Fin 2) * 256 + 1 * q.val = q.val; rw [e1]; omega

/-- The output array of region 0 as one function of the arrays the region finds: at row `r`, the payload
    of the blocks of grid point `r / 5000` at row `r % 5000`. -/
def G0 (c : Dev nD) : S50000x256.Idx → Elt F .f32 := fun i =>
  k0_pay1 (iblk0 V c 0 (pt0 (i 0))) (iblk0 V c 2 (pt0 (i 0))) (iblk0 V c 1 (pt0 (i 0))) (iblk0 V c 3 (pt0 (i 0))) (iblk0 V c 4 (pt0 (i 0)))
    (ix2 (rowIn0 (i 0)) (i 1))

/-- At row 5000·t + p that function is the payload of point `t`'s blocks at row `p`. -/
theorem G0_at (c : Dev nD) (t : Fin cfg0.N) (i : S50000x256.Idx) (p : Fin 5000) (q : Fin 256)
    (h0 : (i 0).val = 5000 * t.val + p.val) (h1 : (i 1).val = q.val) :
    G0 V c i = k0_pay1 (iblk0 V c 0 t) (iblk0 V c 2 t) (iblk0 V c 1 t) (iblk0 V c 3 t) (iblk0 V c 4 t) (ix2 p q) := by
  have hp := p.isLt
  have ep : rowIn0 (i 0) = p := Fin.ext (by show (i 0).val % 5000 = p.val; omega)
  have eq : i 1 = q := Fin.ext h1
  obtain rfl : t = pt0 (i 0) := Fin.ext (by show t.val = (i 0).val / 5000; omega)
  unfold G0
  rw [ep, eq]

/-- What point `t` writes back is its block of that function. -/
theorem flushed0_eq (c : Dev nD) (t : Fin cfg0.N) :
    (dat0 V c).flushed 5 t = ((cfg0.win 5).blk t).view.read (Elt F) (G0 V c) := by
  show (cfg0.win 5).cut (grid0.coords t) ((dat0 V c).after 5 t) = _
  rw [after0_5]
  unfold out0_5
  rw [View.canon_unit_zero zero_offsets]
  simp only [View.ld_unit_zero (S := S5000x128) zero_offsets,
    View.ld_unit_zero (S := S128x256) zero_offsets,
    View.ld_unit_zero (S := S1x256) zero_offsets]
  obtain ⟨-, -, -, -, -, -, -, -, -, -, e0, e1⟩ := index0 t
  funext j
  rw [View.read_apply]
  refine Eq.trans ?_ (G0_at V c t _ (j 0) (j 1) ?_ ?_).symm
  · exact congrArg (k0_pay1 (iblk0 V c 0 t) (iblk0 V c 2 t) (iblk0 V c 1 t) (iblk0 V c 3 t) (iblk0 V c 4 t))
      (eq_ix2 (n0 := 5000) (n1 := 256) j)
  · show win0_5.index t (0 : Fin 2) * 5000 + 1 * (j 0).val = 5000 * t.val + (j 0).val; rw [e0]; omega
  · show win0_5.index t (1 : Fin 2) * 256 + 1 * (j 1).val = (j 1).val; rw [e1]; omega

/-- An index of the output array is in point `t`'s block iff each coordinate is in the block's range. -/
theorem mem_blk0 (t : Fin cfg0.N) (i : S50000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v27).slice (win0_5.rect t)).set ↔ _
  rw [View.set_slice_whole, Rect.mem_set_unit]
  exact Iff.rfl

/-- Every index of the output array is in the block of the point its row names. -/
theorem cover0 (i : S50000x256.Idx) :
    ∃ t : Fin cfg0.N, (cfg0.win 5).flush t = true ∧ i ∈ ((cfg0.win 5).blk t).view.set := by
  refine ⟨pt0 (i 0), flush0_5 _, ?_⟩
  rw [mem_blk0]
  obtain ⟨-, -, -, -, -, -, -, -, -, -, e0, e1⟩ := index0 (pt0 (i 0))
  have h0 : (i 0).val < 50000 := (i 0).isLt
  have h1 : (i 1).val < 256 := (i 1).isLt
  intro a
  match a with
  | ⟨0, _⟩ =>
    show win0_5.index (pt0 (i 0)) (0 : Fin 2) * 5000 ≤ (i 0).val
      ∧ (i 0).val < win0_5.index (pt0 (i 0)) (0 : Fin 2) * 5000 + 5000
    rw [e0]
    show (i 0).val / 5000 * 5000 ≤ (i 0).val ∧ (i 0).val < (i 0).val / 5000 * 5000 + 5000
    omega
  | ⟨1, _⟩ =>
    show win0_5.index (pt0 (i 0)) (1 : Fin 2) * 256 ≤ (i 1).val
      ∧ (i 1).val < win0_5.index (pt0 (i 0)) (1 : Fin 2) * 256 + 256
    rw [e1]; omega

/-- The output array after region 0 is that function. -/
theorem arr0_eq (c : Dev nD) : (dat0 V c).arrAt 5 cfg0.N = G0 V c :=
  (dat0 V c).arrAt_eq_of_cover 5 (G0 V c) (fun t _ => flushed0_eq V c t) cover0

/-- The output array after region 0 at row 5000·t + p: the payload of point `t`'s blocks at row `p`. -/
theorem arr0_apply (c : Dev nD) (t : Fin cfg0.N) (p : Fin 5000) (q : Fin 256) :
    (dat0 V c).arrAt 5 cfg0.N (ix2 ⟨5000 * t.val + p.val, row_lt0 t p⟩ q)
      = k0_pay1 (iblk0 V c 0 t) (iblk0 V c 2 t) (iblk0 V c 1 t) (iblk0 V c 3 t) (iblk0 V c 4 t) (ix2 p q) := by
  rw [arr0_eq]
  exact G0_at V c t _ p q rfl rfl

/-! ## Region 1 -/

/-- The block indices of region 1's windows at grid point `t`: the two activation windows and the output window sit at block row `t`, the weight and bias windows at block zero. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is a row of the 50000-row arrays. -/
theorem row_lt1 (t : Fin cfg1.N) (p : Fin 5000) : 5000 * t.val + p.val < 50000 := by
  have h : t.val < 10 := lt_of_lt_of_eq t.isLt N_1
  have := p.isLt; omega

/-- The grid point whose block holds row `r`. -/
def pt1 (r : Fin 50000) : Fin cfg1.N := ⟨r.val / 5000, lt_of_lt_of_eq (by have := r.isLt; omega) N_1.symm⟩

theorem pt1_val (r : Fin 50000) : (pt1 r).val = r.val / 5000 := rfl

/-- Row `r`'s place inside its block. -/
def rowIn1 (r : Fin 50000) : Fin 5000 := ⟨r.val % 5000, Nat.mod_lt _ (by decide)⟩

theorem rowIn1_val (r : Fin 50000) : (rowIn1 r).val = r.val % 5000 := rfl

/-- Window 0's block at point `t` is rows 5000·t … 5000·t + 4999 of the aggregated neighbours' array. -/
theorem iblk1_0_apply (c : Dev nD) (t : Fin cfg1.N) (p : Fin 5000) (k : Fin 256) :
    iblk1 V c 0 t (ix2 p k) = V c main_v46 (ix2 ⟨5000 * t.val + p.val, row_lt1 t p⟩ k) := by
  obtain ⟨e0, e1, -⟩ := index1 t
  unfold iblk1
  rw [View.read_apply]
  show V c main_v46 _ = V c main_v46 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- Window 1's block at point `t` is rows 5000·t … 5000·t + 4999 of the nodes' own array. -/
theorem iblk1_1_apply (c : Dev nD) (t : Fin cfg1.N) (p : Fin 5000) (k : Fin 256) :
    iblk1 V c 1 t (ix2 p k) = V c main_v47 (ix2 ⟨5000 * t.val + p.val, row_lt1 t p⟩ k) := by
  obtain ⟨-, -, e0, e1, -⟩ := index1 t
  unfold iblk1
  rw [View.read_apply]
  show V c main_v47 _ = V c main_v47 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 256 + 1 * k.val = k.val; rw [e1]; omega

/-- Window 2's block at every point is the whole of the weight matrix the neighbours' rows are multiplied by. -/
theorem iblk1_2_apply (c : Dev nD) (t : Fin cfg1.N) (k : Fin 256) (q : Fin 256) :
    iblk1 V c 2 t (ix2 k q) = V c main_v48 (ix2 k q) := by
  obtain ⟨-, -, -, -, e0, e1, -⟩ := index1 t
  unfold iblk1
  rw [View.read_apply]
  show V c main_v48 _ = V c main_v48 _
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- Window 3's block at every point is the whole of the weight matrix the nodes' own rows are multiplied by. -/
theorem iblk1_3_apply (c : Dev nD) (t : Fin cfg1.N) (k : Fin 256) (q : Fin 256) :
    iblk1 V c 3 t (ix2 k q) = V c main_v49 (ix2 k q) := by
  obtain ⟨-, -, -, -, -, -, e0, e1, -⟩ := index1 t
  unfold iblk1
  rw [View.read_apply]
  show V c main_v49 _ = V c main_v49 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- Window 4's block at every point is the whole of the bias row. -/
theorem iblk1_4_apply (c : Dev nD) (t : Fin cfg1.N) (k : Fin 1) (q : Fin 256) :
    iblk1 V c 4 t (ix2 k q) = V c main_v50 (ix2 k q) := by
  obtain ⟨-, -, -, -, -, -, -, -, e0, e1, -⟩ := index1 t
  unfold iblk1
  rw [View.read_apply]
  show V c main_v50 _ = V c main_v50 _
  congr 1
  funext a
  apply Fin.ext
  match a with
  | ⟨0, _⟩ => show win1_4.index t (0 : Fin 2) * 1 + 1 * k.val = k.val; rw [e0]; omega
  | ⟨1, _⟩ => show win1_4.index t (1 : Fin 2) * 256 + 1 * q.val = q.val; rw [e1]; omega

/-- The output array of region 1 as one function of the arrays the region finds: at row `r`, the payload
    of the blocks of grid point `r / 5000` at row `r % 5000`. -/
def G1 (c : Dev nD) : S50000x256.Idx → Elt F .f32 := fun i =>
  k1_pay1 (iblk1 V c 0 (pt1 (i 0))) (iblk1 V c 2 (pt1 (i 0))) (iblk1 V c 1 (pt1 (i 0))) (iblk1 V c 3 (pt1 (i 0))) (iblk1 V c 4 (pt1 (i 0)))
    (ix2 (rowIn1 (i 0)) (i 1))

/-- At row 5000·t + p that function is the payload of point `t`'s blocks at row `p`. -/
theorem G1_at (c : Dev nD) (t : Fin cfg1.N) (i : S50000x256.Idx) (p : Fin 5000) (q : Fin 256)
    (h0 : (i 0).val = 5000 * t.val + p.val) (h1 : (i 1).val = q.val) :
    G1 V c i = k1_pay1 (iblk1 V c 0 t) (iblk1 V c 2 t) (iblk1 V c 1 t) (iblk1 V c 3 t) (iblk1 V c 4 t) (ix2 p q) := by
  have hp := p.isLt
  have ep : rowIn1 (i 0) = p := Fin.ext (by show (i 0).val % 5000 = p.val; omega)
  have eq : i 1 = q := Fin.ext h1
  obtain rfl : t = pt1 (i 0) := Fin.ext (by show t.val = (i 0).val / 5000; omega)
  unfold G1
  rw [ep, eq]

/-- What point `t` writes back is its block of that function. -/
theorem flushed1_eq (c : Dev nD) (t : Fin cfg1.N) :
    (dat1 V c).flushed 5 t = ((cfg1.win 5).blk t).view.read (Elt F) (G1 V c) := by
  show (cfg1.win 5).cut (grid1.coords t) ((dat1 V c).after 5 t) = _
  rw [after1_5]
  unfold out1_5
  rw [View.canon_unit_zero zero_offsets]
  simp only [View.ld_unit_zero (S := S5000x256) zero_offsets,
    View.ld_unit_zero (S := S256x256) zero_offsets,
    View.ld_unit_zero (S := S1x256) zero_offsets]
  obtain ⟨-, -, -, -, -, -, -, -, -, -, e0, e1⟩ := index1 t
  funext j
  rw [View.read_apply]
  refine Eq.trans ?_ (G1_at V c t _ (j 0) (j 1) ?_ ?_).symm
  · exact congrArg (k1_pay1 (iblk1 V c 0 t) (iblk1 V c 2 t) (iblk1 V c 1 t) (iblk1 V c 3 t) (iblk1 V c 4 t))
      (eq_ix2 (n0 := 5000) (n1 := 256) j)
  · show win1_5.index t (0 : Fin 2) * 5000 + 1 * (j 0).val = 5000 * t.val + (j 0).val; rw [e0]; omega
  · show win1_5.index t (1 : Fin 2) * 256 + 1 * (j 1).val = (j 1).val; rw [e1]; omega

/-- An index of the output array is in point `t`'s block iff each coordinate is in the block's range. -/
theorem mem_blk1 (t : Fin cfg1.N) (i : S50000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v51).slice (win1_5.rect t)).set ↔ _
  rw [View.set_slice_whole, Rect.mem_set_unit]
  exact Iff.rfl

/-- Every index of the output array is in the block of the point its row names. -/
theorem cover1 (i : S50000x256.Idx) :
    ∃ t : Fin cfg1.N, (cfg1.win 5).flush t = true ∧ i ∈ ((cfg1.win 5).blk t).view.set := by
  refine ⟨pt1 (i 0), flush1_5 _, ?_⟩
  rw [mem_blk1]
  obtain ⟨-, -, -, -, -, -, -, -, -, -, e0, e1⟩ := index1 (pt1 (i 0))
  have h0 : (i 0).val < 50000 := (i 0).isLt
  have h1 : (i 1).val < 256 := (i 1).isLt
  intro a
  match a with
  | ⟨0, _⟩ =>
    show win1_5.index (pt1 (i 0)) (0 : Fin 2) * 5000 ≤ (i 0).val
      ∧ (i 0).val < win1_5.index (pt1 (i 0)) (0 : Fin 2) * 5000 + 5000
    rw [e0]
    show (i 0).val / 5000 * 5000 ≤ (i 0).val ∧ (i 0).val < (i 0).val / 5000 * 5000 + 5000
    omega
  | ⟨1, _⟩ =>
    show win1_5.index (pt1 (i 0)) (1 : Fin 2) * 256 ≤ (i 1).val
      ∧ (i 1).val < win1_5.index (pt1 (i 0)) (1 : Fin 2) * 256 + 256
    rw [e1]; omega

/-- The output array after region 1 is that function. -/
theorem arr1_eq (c : Dev nD) : (dat1 V c).arrAt 5 cfg1.N = G1 V c :=
  (dat1 V c).arrAt_eq_of_cover 5 (G1 V c) (fun t _ => flushed1_eq V c t) cover1

/-- The output array after region 1 at row 5000·t + p: the payload of point `t`'s blocks at row `p`. -/
theorem arr1_apply (c : Dev nD) (t : Fin cfg1.N) (p : Fin 5000) (q : Fin 256) :
    (dat1 V c).arrAt 5 cfg1.N (ix2 ⟨5000 * t.val + p.val, row_lt1 t p⟩ q)
      = k1_pay1 (iblk1 V c 0 t) (iblk1 V c 2 t) (iblk1 V c 1 t) (iblk1 V c 3 t) (iblk1 V c 4 t) (ix2 p q) := by
  rw [arr1_eq]
  exact G1_at V c t _ p q rfl rfl

/-! ## Region 2 -/

/-- The block indices of region 2's windows at grid point `t`: the edges' feature window and the output window sit at block row `t`, the three weight matrices' and three bias rows' windows at block zero. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of block `t` is a row of the 400000-row arrays. -/
theorem row_lt2 (t : Fin cfg2.N) (p : Fin 5000) : 5000 * t.val + p.val < 400000 := by
  have h : t.val < 80 := lt_of_lt_of_eq t.isLt N_2
  have := p.isLt; omega

/-- The grid point whose block holds row `r`. -/
def pt2 (r : Fin 400000) : Fin cfg2.N := ⟨r.val / 5000, lt_of_lt_of_eq (by have := r.isLt; omega) N_2.symm⟩

theorem pt2_val (r : Fin 400000) : (pt2 r).val = r.val / 5000 := rfl

/-- Row `r`'s place inside its block. -/
def rowIn2 (r : Fin 400000) : Fin 5000 := ⟨r.val % 5000, Nat.mod_lt _ (by decide)⟩

theorem rowIn2_val (r : Fin 400000) : (rowIn2 r).val = r.val % 5000 := rfl

/-- Window 0's block at point `t` is rows 5000·t … 5000·t + 4999 of the edges' concatenated features. -/
theorem iblk2_0_apply (c : Dev nD) (t : Fin cfg2.N) (p : Fin 5000) (k : Fin 576) :
    iblk2 V c 0 t (ix2 p k) = V c main_v67 (ix2 ⟨5000 * t.val + p.val, row_lt2 t p⟩ k) := by
  obtain ⟨e0, e1, -⟩ := index2 t
  unfold iblk2
  rw [View.read_apply]
  show V c main_v67 _ = V c main_v67 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 576 + 1 * k.val = k.val; rw [e1]; omega

/-- Window 1's block at every point is the whole of the first weight matrix. -/
theorem iblk2_1_apply (c : Dev nD) (t : Fin cfg2.N) (k : Fin 576) (q : Fin 256) :
    iblk2 V c 1 t (ix2 k q) = V c main_v68 (ix2 k q) := by
  obtain ⟨-, -, e0, e1, -⟩ := index2 t
  unfold iblk2
  rw [View.read_apply]
  show V c main_v68 _ = V c main_v68 _
  congr 1
  funext a
  apply Fin.ext
  match a with
  | ⟨0, _⟩ => show win2_1.index t (0 : Fin 2) * 576 + 1 * k.val = k.val; rw [e0]; omega
  | ⟨1, _⟩ => show win2_1.index t (1 : Fin 2) * 256 + 1 * q.val = q.val; rw [e1]; omega

/-- Window 2's block at every point is the whole of the first bias row. -/
theorem iblk2_2_apply (c : Dev nD) (t : Fin cfg2.N) (k : Fin 1) (q : Fin 256) :
    iblk2 V c 2 t (ix2 k q) = V c main_v71 (ix2 k q) := by
  obtain ⟨-, -, -, -, e0, e1, -⟩ := index2 t
  unfold iblk2
  rw [View.read_apply]
  show V c main_v71 _ = V c main_v71 _
  congr 1
  funext a
  apply Fin.ext
  match a with
  | ⟨0, _⟩ => show win2_2.index t (0 : Fin 2) * 1 + 1 * k.val = k.val; rw [e0]; omega
  | ⟨1, _⟩ => show win2_2.index t (1 : Fin 2) * 256 + 1 * q.val = q.val; rw [e1]; omega

/-- Window 3's block at every point is the whole of the second weight matrix. -/
theorem iblk2_3_apply (c : Dev nD) (t : Fin cfg2.N) (k : Fin 256) (q : Fin 128) :
    iblk2 V c 3 t (ix2 k q) = V c main_v69 (ix2 k q) := by
  obtain ⟨-, -, -, -, -, -, e0, e1, -⟩ := index2 t
  unfold iblk2
  rw [View.read_apply]
  show V c main_v69 _ = V c main_v69 _
  congr 1
  funext a
  apply Fin.ext
  match a with
  | ⟨0, _⟩ => show win2_3.index t (0 : Fin 2) * 256 + 1 * k.val = k.val; rw [e0]; omega
  | ⟨1, _⟩ => show win2_3.index t (1 : Fin 2) * 128 + 1 * q.val = q.val; rw [e1]; omega

/-- Window 4's block at every point is the whole of the second bias row. -/
theorem iblk2_4_apply (c : Dev nD) (t : Fin cfg2.N) (k : Fin 1) (q : Fin 128) :
    iblk2 V c 4 t (ix2 k q) = V c main_v72 (ix2 k q) := by
  obtain ⟨-, -, -, -, -, -, -, -, e0, e1, -⟩ := index2 t
  unfold iblk2
  rw [View.read_apply]
  show V c main_v72 _ = V c main_v72 _
  congr 1
  funext a
  apply Fin.ext
  match a with
  | ⟨0, _⟩ => show win2_4.index t (0 : Fin 2) * 1 + 1 * k.val = k.val; rw [e0]; omega
  | ⟨1, _⟩ => show win2_4.index t (1 : Fin 2) * 128 + 1 * q.val = q.val; rw [e1]; omega

/-- Window 5's block at every point is the whole of the third weight matrix. -/
theorem iblk2_5_apply (c : Dev nD) (t : Fin cfg2.N) (k : Fin 128) (q : Fin 1) :
    iblk2 V c 5 t (ix2 k q) = V c main_v70 (ix2 k q) := by
  obtain ⟨-, -, -, -, -, -, -, -, -, -, e0, e1, -⟩ := index2 t
  unfold iblk2
  rw [View.read_apply]
  show V c main_v70 _ = V c main_v70 _
  congr 1
  funext a
  apply Fin.ext
  match a with
  | ⟨0, _⟩ => show win2_5.index t (0 : Fin 2) * 128 + 1 * k.val = k.val; rw [e0]; omega
  | ⟨1, _⟩ => show win2_5.index t (1 : Fin 2) * 1 + 1 * q.val = q.val; rw [e1]; omega

/-- Window 6's block at every point is the whole of the third bias row. -/
theorem iblk2_6_apply (c : Dev nD) (t : Fin cfg2.N) (k : Fin 1) (q : Fin 1) :
    iblk2 V c 6 t (ix2 k q) = V c main_v73 (ix2 k q) := by
  obtain ⟨-, -, -, -, -, -, -, -, -, -, -, -, e0, e1, -⟩ := index2 t
  unfold iblk2
  rw [View.read_apply]
  show V c main_v73 _ = V c main_v73 _
  congr 1
  funext a
  apply Fin.ext
  match a with
  | ⟨0, _⟩ => show win2_6.index t (0 : Fin 2) * 1 + 1 * k.val = k.val; rw [e0]; omega
  | ⟨1, _⟩ => show win2_6.index t (1 : Fin 2) * 1 + 1 * q.val = q.val; rw [e1]; omega

/-- The output array of region 2 as one function of the arrays the region finds: at row `r`, the payload
    of the blocks of grid point `r / 5000` at row `r % 5000`. -/
def G2 (c : Dev nD) : S400000x1.Idx → Elt F .f32 := fun i =>
  k2_pay1 (iblk2 V c 0 (pt2 (i 0))) (iblk2 V c 1 (pt2 (i 0))) (iblk2 V c 2 (pt2 (i 0))) (iblk2 V c 3 (pt2 (i 0))) (iblk2 V c 4 (pt2 (i 0))) (iblk2 V c 5 (pt2 (i 0))) (iblk2 V c 6 (pt2 (i 0)))
    (ix2 (rowIn2 (i 0)) (i 1))

/-- At row 5000·t + p that function is the payload of point `t`'s blocks at row `p`. -/
theorem G2_at (c : Dev nD) (t : Fin cfg2.N) (i : S400000x1.Idx) (p : Fin 5000) (q : Fin 1)
    (h0 : (i 0).val = 5000 * t.val + p.val) (h1 : (i 1).val = q.val) :
    G2 V c i = k2_pay1 (iblk2 V c 0 t) (iblk2 V c 1 t) (iblk2 V c 2 t) (iblk2 V c 3 t) (iblk2 V c 4 t) (iblk2 V c 5 t) (iblk2 V c 6 t) (ix2 p q) := by
  have hp := p.isLt
  have ep : rowIn2 (i 0) = p := Fin.ext (by show (i 0).val % 5000 = p.val; omega)
  have eq : i 1 = q := Fin.ext h1
  obtain rfl : t = pt2 (i 0) := Fin.ext (by show t.val = (i 0).val / 5000; omega)
  unfold G2
  rw [ep, eq]

/-- What point `t` writes back is its block of that function. -/
theorem flushed2_eq (c : Dev nD) (t : Fin cfg2.N) :
    (dat2 V c).flushed 7 t = ((cfg2.win 7).blk t).view.read (Elt F) (G2 V c) := by
  show (cfg2.win 7).cut (grid2.coords t) ((dat2 V c).after 7 t) = _
  rw [after2_7]
  unfold out2_7
  rw [View.canon_unit_zero zero_offsets]
  simp only [View.ld_unit_zero (S := S5000x576) zero_offsets,
    View.ld_unit_zero (S := S576x256) zero_offsets,
    View.ld_unit_zero (S := S1x256) zero_offsets,
    View.ld_unit_zero (S := S256x128) zero_offsets,
    View.ld_unit_zero (S := S1x128) zero_offsets,
    View.ld_unit_zero (S := S128x1) zero_offsets,
    View.ld_unit_zero (S := S1x1) zero_offsets]
  obtain ⟨-, -, -, -, -, -, -, -, -, -, -, -, -, -, e0, e1⟩ := index2 t
  funext j
  rw [View.read_apply]
  refine Eq.trans ?_ (G2_at V c t _ (j 0) (j 1) ?_ ?_).symm
  · exact congrArg (k2_pay1 (iblk2 V c 0 t) (iblk2 V c 1 t) (iblk2 V c 2 t) (iblk2 V c 3 t) (iblk2 V c 4 t) (iblk2 V c 5 t) (iblk2 V c 6 t))
      (eq_ix2 (n0 := 5000) (n1 := 1) j)
  · show win2_7.index t (0 : Fin 2) * 5000 + 1 * (j 0).val = 5000 * t.val + (j 0).val; rw [e0]; omega
  · show win2_7.index t (1 : Fin 2) * 1 + 1 * (j 1).val = (j 1).val; rw [e1]; omega

/-- An index of the output array is in point `t`'s block iff each coordinate is in the block's range. -/
theorem mem_blk2 (t : Fin cfg2.N) (i : S400000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v74).slice (win2_7.rect t)).set ↔ _
  rw [View.set_slice_whole, Rect.mem_set_unit]
  exact Iff.rfl

/-- Every index of the output array is in the block of the point its row names. -/
theorem cover2 (i : S400000x1.Idx) :
    ∃ t : Fin cfg2.N, (cfg2.win 7).flush t = true ∧ i ∈ ((cfg2.win 7).blk t).view.set := by
  refine ⟨pt2 (i 0), flush2_7 _, ?_⟩
  rw [mem_blk2]
  obtain ⟨-, -, -, -, -, -, -, -, -, -, -, -, -, -, e0, e1⟩ := index2 (pt2 (i 0))
  have h0 : (i 0).val < 400000 := (i 0).isLt
  have h1 : (i 1).val < 1 := (i 1).isLt
  intro a
  match a with
  | ⟨0, _⟩ =>
    show win2_7.index (pt2 (i 0)) (0 : Fin 2) * 5000 ≤ (i 0).val
      ∧ (i 0).val < win2_7.index (pt2 (i 0)) (0 : Fin 2) * 5000 + 5000
    rw [e0]
    show (i 0).val / 5000 * 5000 ≤ (i 0).val ∧ (i 0).val < (i 0).val / 5000 * 5000 + 5000
    omega
  | ⟨1, _⟩ =>
    show win2_7.index (pt2 (i 0)) (1 : Fin 2) * 1 ≤ (i 1).val
      ∧ (i 1).val < win2_7.index (pt2 (i 0)) (1 : Fin 2) * 1 + 1
    rw [e1]; omega

/-- The output array after region 2 is that function. -/
theorem arr2_eq (c : Dev nD) : (dat2 V c).arrAt 7 cfg2.N = G2 V c :=
  (dat2 V c).arrAt_eq_of_cover 7 (G2 V c) (fun t _ => flushed2_eq V c t) cover2

/-- The output array after region 2 at row 5000·t + p: the payload of point `t`'s blocks at row `p`. -/
theorem arr2_apply (c : Dev nD) (t : Fin cfg2.N) (p : Fin 5000) (q : Fin 1) :
    (dat2 V c).arrAt 7 cfg2.N (ix2 ⟨5000 * t.val + p.val, row_lt2 t p⟩ q)
      = k2_pay1 (iblk2 V c 0 t) (iblk2 V c 1 t) (iblk2 V c 2 t) (iblk2 V c 3 t) (iblk2 V c 4 t) (iblk2 V c 5 t) (iblk2 V c 6 t) (ix2 p q) := by
  rw [arr2_eq]
  exact G2_at V c t _ p q rfl rfl

end Cert.KernelIdeal.Val

end
-- ==== Proof.Val.RefEl.lean ====
/- The reference program read at an index: three of its stages as plain sums over the extended reals.
   Each stage is a chain of matrix products, row-broadcast biases and maxima with zero; the operands
   that come out of gather, scatter and concatenate chains are left as atoms. -/
import proofs.«142010_j70282844831970_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Read Idealize.ShloMosaic Idealize.ShloMosaic.ValueIdx

/-! ### Index equations

The operand indices of each matrix product and each broadcast, at an index given by its coordinates:
a product reads row `r` of its left operand and column `q` of its right one at the summation index,
a bias broadcast along the rows reads the column coordinate. -/

theorem lidx22 (r : Fin 50000) (q : Fin 256) (k : Fin 128) : lidx_main_v22 (ix2 r q) k = ix2 r k :=
  funext fun a => Fin.ext (by match a with | ⟨0, _⟩ => rfl | ⟨1, _⟩ => rfl)
theorem ridx22 (r : Fin 50000) (q : Fin 256) (k : Fin 128) : ridx_main_v22 (ix2 r q) k = ix2 k q :=
  funext fun a => Fin.ext (by match a with | ⟨0, _⟩ => rfl | ⟨1, _⟩ => rfl)
theorem lidx23 (r : Fin 50000) (q : Fin 256) (k : Fin 128) : lidx_main_v23 (ix2 r q) k = ix2 r k :=
  funext fun a => Fin.ext (by match a with | ⟨0, _⟩ => rfl | ⟨1, _⟩ => rfl)
theorem ridx23 (r : Fin 50000) (q : Fin 256) (k : Fin 128) : ridx_main_v23 (ix2 r q) k = ix2 k q :=
  funext fun a => Fin.ext (by match a with | ⟨0, _⟩ => rfl | ⟨1, _⟩ => rfl)
theorem idx25_26 (r : Fin 50000) (q : Fin 256) : idx_main_v25 (idx_main_v26 (ix2 r q)) = ix1 q :=
  funext fun a => Fin.ext (by match a with | ⟨0, _⟩ => rfl)

theorem lidx47 (r : Fin 50000) (q : Fin 256) (k : Fin 256) : lidx_main_v47 (ix2 r q) k = ix2 r k :=
  funext fun a => Fin.ext (by match a with | ⟨0, _⟩ => rfl | ⟨1, _⟩ => rfl)
theorem ridx47 (r : Fin 50000) (q : Fin 256) (k : Fin 256) : ridx_main_v47 (ix2 r q) k = ix2 k q :=
  funext fun a => Fin.ext (by match a with | ⟨0, _⟩ => rfl | ⟨1, _⟩ => rfl)
theorem lidx48 (r : Fin 50000) (q : Fin 256) (k : Fin 256) : lidx_main_v48 (ix2 r q) k = ix2 r k :=
  funext fun a => Fin.ext (by match a with | ⟨0, _⟩ => rfl | ⟨1, _⟩ => rfl)
theorem ridx48 (r : Fin 50000) (q : Fin 256) (k : Fin 256) : ridx_main_v48 (ix2 r q) k = ix2 k q :=
  funext fun a => Fin.ext (by match a with | ⟨0, _⟩ => rfl | ⟨1, _⟩ => rfl)
theorem idx50_51 (r : Fin 50000) (q : Fin 256) : idx_main_v50 (idx_main_v51 (ix2 r q)) = ix1 q :=
  funext fun a => Fin.ext (by match a with | ⟨0, _⟩ => rfl)

theorem lidx68 (r : Fin 400000) (q : Fin 256) (k : Fin 576) : lidx_main_v68 (ix2 r q) k = ix2 r k :=
  funext fun a => Fin.ext (by match a with | ⟨0, _⟩ => rfl | ⟨1, _⟩ => rfl)
theorem ridx68 (r : Fin 400000) (q : Fin 256) (k : Fin 576) : ridx_main_v68 (ix2 r q) k = ix2 k q :=
  funext fun a => Fin.ext (by match a with | ⟨0, _⟩ => rfl | ⟨1, _⟩ => rfl)
theorem idx69_70 (r : Fin 400000) (q : Fin 256) : idx_main_v69 (idx_main_v70 (ix2 r q)) = ix1 q :=
  funext fun a => Fin.ext (by match a with | ⟨0, _⟩ => rfl)
theorem lidx73 (r : Fin 400000) (q : Fin 128) (k : Fin 256) : lidx_main_v73 (ix2 r q) k = ix2 r k :=
  funext fun a => Fin.ext (by match a with | ⟨0, _⟩ => rfl | ⟨1, _⟩ => rfl)
theorem ridx73 (r : Fin 400000) (q : Fin 128) (k : Fin 256) : ridx_main_v73 (ix2 r q) k = ix2 k q :=
  funext fun a => Fin.ext (by match a with | ⟨0, _⟩ => rfl | ⟨1, _⟩ => rfl)
theorem idx74_75 (r : Fin 400000) (q : Fin 128) : idx_main_v74 (idx_main_v75 (ix2 r q)) = ix1 q :=
  funext fun a => Fin.ext (by match a with | ⟨0, _⟩ => rfl)
theorem lidx78 (r : Fin 400000) (q : Fin 1) (k : Fin 128) : lidx_main_v78 (ix2 r q) k = ix2 r k :=
  funext fun a => Fin.ext (by match a with | ⟨0, _⟩ => rfl | ⟨1, _⟩ => rfl)
theorem ridx78 (r : Fin 400000) (q : Fin 1) (k : Fin 128) : ridx_main_v78 (ix2 r q) k = ix2 k q :=
  funext fun a => Fin.ext (by match a with | ⟨0, _⟩ => rfl | ⟨1, _⟩ => rfl)
theorem idx79_80 (r : Fin 400000) (q : Fin 1) : idx_main_v79 (idx_main_v80 (ix2 r q)) = ix1 (0 : Fin 1) :=
  funext fun a => Fin.ext (by match a with | ⟨0, _⟩ => rfl)

/-! ### The three stages at an index -/

/-- Stage one: the two products summed, the bias of the column added, and the maximum with zero. -/
theorem ref28_apply (x0 : (⟨S50000x128, .f32⟩ : BufTy).Contents (Elt Ideal)) (x1 : (⟨S2x400000, .i32⟩ : BufTy).Contents (Elt Ideal)) (x3 x4 : (⟨S128x256, .f32⟩ : BufTy).Contents (Elt Ideal)) (x5 : (⟨S256, .f32⟩ : BufTy).Contents (Elt Ideal)) (r : Fin 50000) (q : Fin 256) :
    val_main_v28 (F := Ideal) x0 x1 x3 x4 x5 (ix2 r q) = max (((∑ k : Fin 128, val_main_v21 (F := Ideal) x0 x1 (ix2 r k) * x3 (ix2 k q)) + (∑ k : Fin 128, x0 (ix2 r k) * x4 (ix2 k q))) + x5 (ix1 q)) (0 : EReal) := by
  rewrite [val_main_v28_apply, val_main_v27_apply, val_main_v24_apply, val_main_v22_apply, val_main_v23_apply,
    val_main_v26_apply, val_main_v25_apply, val_main_call0_v0_apply, val_main_call0_cst_apply]
  simp only [lidx22, ridx22, lidx23, ridx23, idx25_26, Ideal.addf_def, Ideal.maximumf_def, Ideal.ofBits_def,
    Ideal.ofBits_zero_f32]

/-- Stage two: the two products summed and the bias of the column added. -/
theorem ref52_apply (x0 : (⟨S50000x128, .f32⟩ : BufTy).Contents (Elt Ideal)) (x1 : (⟨S2x400000, .i32⟩ : BufTy).Contents (Elt Ideal)) (x3 x4 : (⟨S128x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) (r : Fin 50000) (q : Fin 256) :
    val_main_v52 (F := Ideal) x0 x1 x3 x4 x5 x6 x7 x8 (ix2 r q) = ((∑ k : Fin 256, val_main_v46 (F := Ideal) x0 x1 x3 x4 x5 (ix2 r k) * x6 (ix2 k q)) + (∑ k : Fin 256, val_main_v28 (F := Ideal) x0 x1 x3 x4 x5 (ix2 r k) * x7 (ix2 k q))) + x8 (ix1 q) := by
  rewrite [val_main_v52_apply, val_main_v49_apply, val_main_v47_apply, val_main_v48_apply, val_main_v51_apply,
    val_main_v50_apply]
  simp only [lidx47, ridx47, lidx48, ridx48, idx50_51, Ideal.addf_def]

/-- Stage three: three affine layers, the first two each followed by the maximum with zero. -/
theorem ref81_apply (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 x4 : (⟨S128x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) (x9 : (⟨S576x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) (r : Fin 400000) (q : Fin 1) :
    val_main_v81 (F := Ideal) x0 x1 x2 x3 x4 x5 x6 x7 x8 x9 x10 x11 x12 x13 x14 (ix2 r q) = (∑ k3 : Fin 128, max ((∑ k2 : Fin 256, max ((∑ k1 : Fin 576, val_main_v67 (F := Ideal) x0 x1 x2 x3 x4 x5 x6 x7 x8 (ix2 r k1) * x9 (ix2 k1 k2)) + x10 (ix1 k2)) (0 : EReal) * x11 (ix2 k2 k3)) + x12 (ix1 k3)) (0 : EReal) * x13 (ix2 k3 q)) + x14 (ix1 (0 : Fin 1)) := by
  rewrite [val_main_v81_apply, val_main_v78_apply, val_main_v80_apply, val_main_v79_apply]
  simp only [lidx78, ridx78, idx79_80, val_main_v77_apply, val_main_v76_apply, val_main_v73_apply, val_main_v75_apply,
    val_main_v74_apply, val_main_call2_v0_apply, val_main_call2_cst_apply, lidx73, ridx73, idx74_75,
    val_main_v72_apply, val_main_v71_apply, val_main_v68_apply, val_main_v70_apply, val_main_v69_apply,
    val_main_call1_v0_apply, val_main_call1_cst_apply, lidx68, ridx68, idx69_70,
    Ideal.addf_def, Ideal.maximumf_def, Ideal.ofBits_def, Ideal.ofBits_zero_f32]

end Cert.ReferenceIdeal.RefVal
-- ==== Proof.Val.Bridge0.lean ====
/-
  The kernel program's buffer contents, followed through @main, in the reference's own vocabulary.

  The reference program is read one operation at a time as stages `val_main_vN` of the argument arrays.
  Here every buffer of the kernel program that matters is shown to hold one of those stages of the SAME
  arguments, at the ideal instance:
  * a stretch of host operations applies, operation for operation, the reference's own operations (index
    normalisation, row gather, scatter-add, the clamped degree, the division; the concatenation) to arrays
    already known to be stages, so its results are the next stages (a change of float format is the identity);
  * a region's output array, read entry by entry (row `5000·t + p` is row `p` of grid point `t`'s block), is
    the kernel body's sums over the contracted axis of the staged blocks, and the reference's stage read at
    the same entry is the same sums of the same operands: the first SAGE layer (`h0`), the second (`h1`), the
    edge classifier (`h2`).
  The last host operation reshapes the classifier's column, as the reference's last operation does (`w7_v75`).
-/
import proofs.«142010_j70282844831970_1_alg».proof.Proof.KI.Run
import proofs.«142010_j70282844831970_1_alg».proof.Proof.Gen.ReferenceIdeal.Read
import proofs.«142010_j70282844831970_1_alg».proof.Proof.LibNary3
import proofs.«142010_j70282844831970_1_alg».proof.Proof.Val.Pay
import proofs.«142010_j70282844831970_1_alg».proof.Proof.Val.Blocks
import proofs.«142010_j70282844831970_1_alg».proof.Proof.Val.RefEl
import Idealize.ShloMosaic.Lib.StableHlo.Run
import Idealize.ShloMosaic.Lib.ValueIdx
import Idealize.ShloMosaic.Lib.ValueLayout

set_option maxRecDepth 16384

noncomputable section
namespace Cert.KernelIdeal.Val
open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The argument arrays as launched -/
abbrev a0 : (⟨S50000x128, .f32⟩ : BufTy).Contents (Elt Ideal) := m ((c.tc : Thread nD τ).loc main_arg0)
abbrev a1 : (⟨S2x400000, .i32⟩ : BufTy).Contents (Elt Ideal) := m ((c.tc : Thread nD τ).loc main_arg1)
abbrev a2 : (⟨S400000x64, .f32⟩ : BufTy).Contents (Elt Ideal) := m ((c.tc : Thread nD τ).loc main_arg2)
abbrev a3 : (⟨S128x256, .f32⟩ : BufTy).Contents (Elt Ideal) := m ((c.tc : Thread nD τ).loc main_arg3)
abbrev a4 : (⟨S128x256, .f32⟩ : BufTy).Contents (Elt Ideal) := m ((c.tc : Thread nD τ).loc main_arg4)
abbrev a5 : (⟨S256, .f32⟩ : BufTy).Contents (Elt Ideal) := m ((c.tc : Thread nD τ).loc main_arg5)
abbrev a6 : (⟨S256x256, .f32⟩ : BufTy).Contents (Elt Ideal) := m ((c.tc : Thread nD τ).loc main_arg6)
abbrev a7 : (⟨S256x256, .f32⟩ : BufTy).Contents (Elt Ideal) := m ((c.tc : Thread nD τ).loc main_arg7)
abbrev a8 : (⟨S256, .f32⟩ : BufTy).Contents (Elt Ideal) := m ((c.tc : Thread nD τ).loc main_arg8)
abbrev a9 : (⟨S576x256, .f32⟩ : BufTy).Contents (Elt Ideal) := m ((c.tc : Thread nD τ).loc main_arg9)
abbrev a10 : (⟨S256, .f32⟩ : BufTy).Contents (Elt Ideal) := m ((c.tc : Thread nD τ).loc main_arg10)
abbrev a11 : (⟨S256x128, .f32⟩ : BufTy).Contents (Elt Ideal) := m ((c.tc : Thread nD τ).loc main_arg11)
abbrev a12 : (⟨S128, .f32⟩ : BufTy).Contents (Elt Ideal) := m ((c.tc : Thread nD τ).loc main_arg12)
abbrev a13 : (⟨S128x1, .f32⟩ : BufTy).Contents (Elt Ideal) := m ((c.tc : Thread nD τ).loc main_arg13)
abbrev a14 : (⟨S1, .f32⟩ : BufTy).Contents (Elt Ideal) := m ((c.tc : Thread nD τ).loc main_arg14)

/-! ## The first stretch of host operations -/

theorem w1_v1 : W1 m c (Proc.devRef .tc main_v1) = Cert.ReferenceIdeal.Read.val_main_v1 (F := Ideal) (a1 m c) := by
  show StableHlo.after hostOps0 (W0 m c) (Proc.devRef .tc main_v1) = _
  after_results_simp <;> rfl
theorem w1_v3 : W1 m c (Proc.devRef .tc main_v3) = Cert.ReferenceIdeal.Read.val_main_v3 (F := Ideal) (a1 m c) := by
  show StableHlo.after hostOps0 (W0 m c) (Proc.devRef .tc main_v3) = _
  after_results_simp <;> rfl
theorem vin0_v22 : @Eq (FVec Ideal S50000x128 .bf16) (Vin0 m c main_v22) (truncf .bf16 (Cert.ReferenceIdeal.Read.val_main_v21 (F := Ideal) (a0 m c) (a1 m c) : FVec Ideal S50000x128 .f32) bitsLt_bf16_f32) := by
  show StableHlo.after hostOps0 (W0 m c) (Proc.devRef .tc main_v22) = _
  after_results_simp <;> rfl
theorem vin0_v23 : @Eq (FVec Ideal S50000x128 .bf16) (Vin0 m c main_v23) (truncf .bf16 ((a0 m c) : FVec Ideal S50000x128 .f32) bitsLt_bf16_f32) := by
  show StableHlo.after hostOps0 (W0 m c) (Proc.devRef .tc main_v23) = _
  after_results_simp <;> rfl
theorem vin0_v24 : @Eq (FVec Ideal S128x256 .bf16) (Vin0 m c main_v24) (truncf .bf16 ((a3 m c) : FVec Ideal S128x256 .f32) bitsLt_bf16_f32) := by
  show StableHlo.after hostOps0 (W0 m c) (Proc.devRef .tc main_v24) = _
  after_results_simp <;> rfl
theorem vin0_v25 : @Eq (FVec Ideal S128x256 .bf16) (Vin0 m c main_v25) (truncf .bf16 ((a4 m c) : FVec Ideal S128x256 .f32) bitsLt_bf16_f32) := by
  show StableHlo.after hostOps0 (W0 m c) (Proc.devRef .tc main_v25) = _
  after_results_simp <;> rfl
theorem vin0_v26 : Vin0 m c main_v26 = shapeCast S1x256 (a5 m c) shapeCasts_S256_S1x256 := by
  show StableHlo.after hostOps0 (W0 m c) (Proc.devRef .tc main_v26) = _
  after_results_simp <;> rfl

/-! ## Region 0's output is the reference's first layer -/

theorem w1_arg2 : W1 m c (Proc.devRef .tc main_arg2) = a2 m c :=
  (StableHlo.after_of_writes_sub hostOps0 _ hostOps0_writes (by decide) : W1 m c (Proc.devRef .tc main_arg2) = W0 m c (Proc.devRef .tc main_arg2))
theorem w1_arg6 : W1 m c (Proc.devRef .tc main_arg6) = a6 m c :=
  (StableHlo.after_of_writes_sub hostOps0 _ hostOps0_writes (by decide) : W1 m c (Proc.devRef .tc main_arg6) = W0 m c (Proc.devRef .tc main_arg6))
theorem w1_arg7 : W1 m c (Proc.devRef .tc main_arg7) = a7 m c :=
  (StableHlo.after_of_writes_sub hostOps0 _ hostOps0_writes (by decide) : W1 m c (Proc.devRef .tc main_arg7) = W0 m c (Proc.devRef .tc main_arg7))
theorem w1_arg8 : W1 m c (Proc.devRef .tc main_arg8) = a8 m c :=
  (StableHlo.after_of_writes_sub hostOps0 _ hostOps0_writes (by decide) : W1 m c (Proc.devRef .tc main_arg8) = W0 m c (Proc.devRef .tc main_arg8))
theorem w1_arg9 : W1 m c (Proc.devRef .tc main_arg9) = a9 m c :=
  (StableHlo.after_of_writes_sub hostOps0 _ hostOps0_writes (by decide) : W1 m c (Proc.devRef .tc main_arg9) = W0 m c (Proc.devRef .tc main_arg9))
theorem w1_arg10 : W1 m c (Proc.devRef .tc main_arg10) = a10 m c :=
  (StableHlo.after_of_writes_sub hostOps0 _ hostOps0_writes (by decide) : W1 m c (Proc.devRef .tc main_arg10) = W0 m c (Proc.devRef .tc main_arg10))
theorem w1_arg11 : W1 m c (Proc.devRef .tc main_arg11) = a11 m c :=
  (StableHlo.after_of_writes_sub hostOps0 _ hostOps0_writes (by decide) : W1 m c (Proc.devRef .tc main_arg11) = W0 m c (Proc.devRef .tc main_arg11))
theorem w1_arg12 : W1 m c (Proc.devRef .tc main_arg12) = a12 m c :=
  (StableHlo.after_of_writes_sub hostOps0 _ hostOps0_writes (by decide) : W1 m c (Proc.devRef .tc main_arg12) = W0 m c (Proc.devRef .tc main_arg12))
theorem w1_arg13 : W1 m c (Proc.devRef .tc main_arg13) = a13 m c :=
  (StableHlo.after_of_writes_sub hostOps0 _ hostOps0_writes (by decide) : W1 m c (Proc.devRef .tc main_arg13) = W0 m c (Proc.devRef .tc main_arg13))
theorem w1_arg14 : W1 m c (Proc.devRef .tc main_arg14) = a14 m c :=
  (StableHlo.after_of_writes_sub hostOps0 _ hostOps0_writes (by decide) : W1 m c (Proc.devRef .tc main_arg14) = W0 m c (Proc.devRef .tc main_arg14))
theorem w2_arg2 : W2 m c (Proc.devRef .tc main_arg2) = a2 m c :=
  (W2_of_ne m c main_arg2 (by decide)).trans (w1_arg2 m c)
theorem w2_arg6 : W2 m c (Proc.devRef .tc main_arg6) = a6 m c :=
  (W2_of_ne m c main_arg6 (by decide)).trans (w1_arg6 m c)
theorem w2_arg7 : W2 m c (Proc.devRef .tc main_arg7) = a7 m c :=
  (W2_of_ne m c main_arg7 (by decide)).trans (w1_arg7 m c)
theorem w2_arg8 : W2 m c (Proc.devRef .tc main_arg8) = a8 m c :=
  (W2_of_ne m c main_arg8 (by decide)).trans (w1_arg8 m c)
theorem w2_arg9 : W2 m c (Proc.devRef .tc main_arg9) = a9 m c :=
  (W2_of_ne m c main_arg9 (by decide)).trans (w1_arg9 m c)
theorem w2_arg10 : W2 m c (Proc.devRef .tc main_arg10) = a10 m c :=
  (W2_of_ne m c main_arg10 (by decide)).trans (w1_arg10 m c)
theorem w2_arg11 : W2 m c (Proc.devRef .tc main_arg11) = a11 m c :=
  (W2_of_ne m c main_arg11 (by decide)).trans (w1_arg11 m c)
theorem w2_arg12 : W2 m c (Proc.devRef .tc main_arg12) = a12 m c :=
  (W2_of_ne m c main_arg12 (by decide)).trans (w1_arg12 m c)
theorem w2_arg13 : W2 m c (Proc.devRef .tc main_arg13) = a13 m c :=
  (W2_of_ne m c main_arg13 (by decide)).trans (w1_arg13 m c)
theorem w2_arg14 : W2 m c (Proc.devRef .tc main_arg14) = a14 m c :=
  (W2_of_ne m c main_arg14 (by decide)).trans (w1_arg14 m c)
theorem w4_arg2 : W4 m c (Proc.devRef .tc main_arg2) = a2 m c :=
  (W4_of_ne m c main_arg2 (by decide)).trans ((StableHlo.after_of_writes_sub hostOps1 _ hostOps1_writes (by decide) : W3 m c (Proc.devRef .tc main_arg2) = W2 m c (Proc.devRef .tc main_arg2)).trans (w2_arg2 m c))
theorem w4_arg9 : W4 m c (Proc.devRef .tc main_arg9) = a9 m c :=
  (W4_of_ne m c main_arg9 (by decide)).trans ((StableHlo.after_of_writes_sub hostOps1 _ hostOps1_writes (by decide) : W3 m c (Proc.devRef .tc main_arg9) = W2 m c (Proc.devRef .tc main_arg9)).trans (w2_arg9 m c))
theorem w4_arg10 : W4 m c (Proc.devRef .tc main_arg10) = a10 m c :=
  (W4_of_ne m c main_arg10 (by decide)).trans ((StableHlo.after_of_writes_sub hostOps1 _ hostOps1_writes (by decide) : W3 m c (Proc.devRef .tc main_arg10) = W2 m c (Proc.devRef .tc main_arg10)).trans (w2_arg10 m c))
theorem w4_arg11 : W4 m c (Proc.devRef .tc main_arg11) = a11 m c :=
  (W4_of_ne m c main_arg11 (by decide)).trans ((StableHlo.after_of_writes_sub hostOps1 _ hostOps1_writes (by decide) : W3 m c (Proc.devRef .tc main_arg11) = W2 m c (Proc.devRef .tc main_arg11)).trans (w2_arg11 m c))
theorem w4_arg12 : W4 m c (Proc.devRef .tc main_arg12) = a12 m c :=
  (W4_of_ne m c main_arg12 (by decide)).trans ((StableHlo.after_of_writes_sub hostOps1 _ hostOps1_writes (by decide) : W3 m c (Proc.devRef .tc main_arg12) = W2 m c (Proc.devRef .tc main_arg12)).trans (w2_arg12 m c))
theorem w4_arg13 : W4 m c (Proc.devRef .tc main_arg13) = a13 m c :=
  (W4_of_ne m c main_arg13 (by decide)).trans ((StableHlo.after_of_writes_sub hostOps1 _ hostOps1_writes (by decide) : W3 m c (Proc.devRef .tc main_arg13) = W2 m c (Proc.devRef .tc main_arg13)).trans (w2_arg13 m c))
theorem w4_arg14 : W4 m c (Proc.devRef .tc main_arg14) = a14 m c :=
  (W4_of_ne m c main_arg14 (by decide)).trans ((StableHlo.after_of_writes_sub hostOps1 _ hostOps1_writes (by decide) : W3 m c (Proc.devRef .tc main_arg14) = W2 m c (Proc.devRef .tc main_arg14)).trans (w2_arg14 m c))

theorem w2_v1 : W2 m c (Proc.devRef .tc main_v1) = Cert.ReferenceIdeal.Read.val_main_v1 (F := Ideal) (a1 m c) :=
  (W2_of_ne m c main_v1 (by decide)).trans (w1_v1 m c)
theorem w2_v3 : W2 m c (Proc.devRef .tc main_v3) = Cert.ReferenceIdeal.Read.val_main_v3 (F := Ideal) (a1 m c) :=
  (W2_of_ne m c main_v3 (by decide)).trans (w1_v3 m c)
theorem w4_v1 : W4 m c (Proc.devRef .tc main_v1) = Cert.ReferenceIdeal.Read.val_main_v1 (F := Ideal) (a1 m c) :=
  (W4_of_ne m c main_v1 (by decide)).trans ((StableHlo.after_of_writes_sub hostOps1 _ hostOps1_writes (by decide) : W3 m c (Proc.devRef .tc main_v1) = W2 m c (Proc.devRef .tc main_v1)).trans (w2_v1 m c))
theorem w4_v3 : W4 m c (Proc.devRef .tc main_v3) = Cert.ReferenceIdeal.Read.val_main_v3 (F := Ideal) (a1 m c) :=
  (W4_of_ne m c main_v3 (by decide)).trans ((StableHlo.after_of_writes_sub hostOps1 _ hostOps1_writes (by decide) : W3 m c (Proc.devRef .tc main_v3) = W2 m c (Proc.devRef .tc main_v3)).trans (w2_v3 m c))

theorem h0 : W2 m c (Proc.devRef .tc main_v27) = Cert.ReferenceIdeal.Read.val_main_v28 (F := Ideal) (a0 m c) (a1 m c) (a3 m c) (a4 m c) (a5 m c) := by
  have key : ∀ i : S50000x256.Idx, (dat0 (F := Ideal) (Vin0 m) c).arrAt 5 cfg0.N i = Cert.ReferenceIdeal.Read.val_main_v28 (F := Ideal) (a0 m c) (a1 m c) (a3 m c) (a4 m c) (a5 m c) i := by
    intro i
    obtain ⟨r, q, rfl⟩ : ∃ (r : Fin 50000) (q : Fin 256), i = ix2 r q := ⟨i 0, i 1, eq_ix2 i⟩
    obtain ⟨t, p, rfl⟩ : ∃ (t : Fin cfg0.N) (p : Fin 5000), r = ⟨5000 * t.val + p.val, row_lt0 t p⟩ :=
      ⟨pt0 r, rowIn0 r, Fin.ext (by show r.val = 5000 * (pt0 r).val + (rowIn0 r).val; rw [pt0_val, rowIn0_val]; exact (Nat.div_add_mod r.val 5000).symm)⟩
    refine (arr0_apply (Vin0 m) c t p q).trans ?_
    refine (pay0_apply _ _ _ _ _ p q).trans ?_
    rw [Cert.ReferenceIdeal.RefVal.ref28_apply]
    simp only [iblk0_0_apply, iblk0_1_apply, iblk0_2_apply, iblk0_3_apply, iblk0_4_apply]
    rw [vin0_v22 m c, vin0_v23 m c, vin0_v24 m c, vin0_v25 m c, vin0_v26 m c]
    simp only [ValueIdx.truncf_apply, shapeCast_a_1a_apply]
  exact (W2_arr m c 5).trans (funext key)

end Cert.KernelIdeal.Val
end
-- ==== Proof.Val.Bridge1.lean ====
/-
  The second stretch of host operations and the second region: the kernel program's buffers as the reference's
  stages, continued (the second SAGE layer's output array is the reference's second layer).
-/
import proofs.«142010_j70282844831970_1_alg».proof.Proof.Val.Bridge0

set_option maxRecDepth 16384

noncomputable section
namespace Cert.KernelIdeal.Val
open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The second stretch of host operations -/

theorem vin1_v46 : @Eq (FVec Ideal S50000x256 .bf16) (Vin1 m c main_v46) (truncf .bf16 (Cert.ReferenceIdeal.Read.val_main_v46 (F := Ideal) (a0 m c) (a1 m c) (a3 m c) (a4 m c) (a5 m c) : FVec Ideal S50000x256 .f32) bitsLt_bf16_f32) := by
  show StableHlo.after hostOps1 (W2 m c) (Proc.devRef .tc main_v46) = _
  after_results_simp
  rw [h0 m c, w2_v1 m c, w2_v3 m c]
  rfl
theorem vin1_v47 : @Eq (FVec Ideal S50000x256 .bf16) (Vin1 m c main_v47) (truncf .bf16 (Cert.ReferenceIdeal.Read.val_main_v28 (F := Ideal) (a0 m c) (a1 m c) (a3 m c) (a4 m c) (a5 m c) : FVec Ideal S50000x256 .f32) bitsLt_bf16_f32) := by
  show StableHlo.after hostOps1 (W2 m c) (Proc.devRef .tc main_v47) = _
  after_results_simp
  rw [h0 m c]
theorem vin1_v48 : @Eq (FVec Ideal S256x256 .bf16) (Vin1 m c main_v48) (truncf .bf16 (a6 m c : FVec Ideal S256x256 .f32) bitsLt_bf16_f32) := by
  show StableHlo.after hostOps1 (W2 m c) (Proc.devRef .tc main_v48) = _
  after_results_simp <;> (try rw [w2_arg6 m c]) <;> rfl
theorem vin1_v49 : @Eq (FVec Ideal S256x256 .bf16) (Vin1 m c main_v49) (truncf .bf16 (a7 m c : FVec Ideal S256x256 .f32) bitsLt_bf16_f32) := by
  show StableHlo.after hostOps1 (W2 m c) (Proc.devRef .tc main_v49) = _
  after_results_simp <;> (try rw [w2_arg7 m c]) <;> rfl
theorem vin1_v50 : Vin1 m c main_v50 = shapeCast S1x256 (a8 m c) shapeCasts_S256_S1x256 := by
  show StableHlo.after hostOps1 (W2 m c) (Proc.devRef .tc main_v50) = _
  after_results_simp <;> (try rw [w2_arg8 m c]) <;> rfl

theorem h1 : W4 m c (Proc.devRef .tc main_v51) = Cert.ReferenceIdeal.Read.val_main_v52 (F := Ideal) (a0 m c) (a1 m c) (a3 m c) (a4 m c) (a5 m c) (a6 m c) (a7 m c) (a8 m c) := by
  have key : ∀ i : S50000x256.Idx, (dat1 (F := Ideal) (Vin1 m) c).arrAt 5 cfg1.N i = Cert.ReferenceIdeal.Read.val_main_v52 (F := Ideal) (a0 m c) (a1 m c) (a3 m c) (a4 m c) (a5 m c) (a6 m c) (a7 m c) (a8 m c) i := by
    intro i
    obtain ⟨r, q, rfl⟩ : ∃ (r : Fin 50000) (q : Fin 256), i = ix2 r q := ⟨i 0, i 1, eq_ix2 i⟩
    obtain ⟨t, p, rfl⟩ : ∃ (t : Fin cfg1.N) (p : Fin 5000), r = ⟨5000 * t.val + p.val, row_lt1 t p⟩ :=
      ⟨pt1 r, rowIn1 r, Fin.ext (by show r.val = 5000 * (pt1 r).val + (rowIn1 r).val; rw [pt1_val, rowIn1_val]; exact (Nat.div_add_mod r.val 5000).symm)⟩
    refine (arr1_apply (Vin1 m) c t p q).trans ?_
    refine (pay1_apply _ _ _ _ _ p q).trans ?_
    rw [Cert.ReferenceIdeal.RefVal.ref52_apply]
    simp only [iblk1_0_apply, iblk1_1_apply, iblk1_2_apply, iblk1_3_apply, iblk1_4_apply]
    rw [vin1_v46 m c, vin1_v47 m c, vin1_v48 m c, vin1_v49 m c, vin1_v50 m c]
    simp only [ValueIdx.truncf_apply, shapeCast_a_1a_apply]
  exact (W4_arr m c 5).trans (funext key)

end Cert.KernelIdeal.Val
end
-- ==== Proof.Val.Bridge.lean ====
/-
  The third stretch of host operations, the third region and the last host operation: the kernel program's
  buffers as the reference's stages, concluded (the edge classifier's column, reshaped, is the reference's result).
-/
import proofs.«142010_j70282844831970_1_alg».proof.Proof.Val.Bridge1

set_option maxRecDepth 16384

noncomputable section
namespace Cert.KernelIdeal.Val
open Cert.KernelIdeal Cert.KernelIdeal.Gen Cert.KernelIdeal.Fr
open Idealize.ShloMosaic Idealize.ShloMosaic.TcCoe Idealize.SL.Sem Idealize.ShloMosaic.StableHlo Idealize.ShloMosaic.ValueIdx

/-- The results of a stretch of host operations, one operation at a time from the last, with a three-operand
    operation's operands read each at its own reference. -/
macro "after_results3" : tactic =>
  `(tactic| (simp only [after_cons, after_nil]
             repeat (first
               | rw [nullary_result] | rw [unary_result] | rw [binary_result] | rw [ternary_result] | rw [quaternary_result]
               | rw [reshape_result] | rw [Cert.LibNary3.nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

variable (m : (ℓ : Loc nD τ sig) → Buf (Elt Ideal) ℓ) (c : Dev nD)

/-! ## The third stretch of host operations -/

set_option maxHeartbeats 8000000 in
theorem vin2_v67 : @Eq (FVec Ideal S400000x576 .bf16) (Vin2 m c main_v67) (truncf .bf16 (Cert.ReferenceIdeal.Read.val_main_v67 (F := Ideal) (a0 m c) (a1 m c) (a2 m c) (a3 m c) (a4 m c) (a5 m c) (a6 m c) (a7 m c) (a8 m c) : FVec Ideal S400000x576 .f32) bitsLt_bf16_f32) := by
  show StableHlo.after hostOps2 (W4 m c) (Proc.devRef .tc main_v67) = _
  after_results3
  rw [h1 m c, w4_v1 m c, w4_v3 m c, w4_arg2 m c]
  rfl
theorem vin2_v68 : @Eq (FVec Ideal S576x256 .bf16) (Vin2 m c main_v68) (truncf .bf16 (a9 m c : FVec Ideal S576x256 .f32) bitsLt_bf16_f32) := by
  show StableHlo.after hostOps2 (W4 m c) (Proc.devRef .tc main_v68) = _
  after_results_simp <;> (try rw [w4_arg9 m c]) <;> rfl
theorem vin2_v69 : @Eq (FVec Ideal S256x128 .bf16) (Vin2 m c main_v69) (truncf .bf16 (a11 m c : FVec Ideal S256x128 .f32) bitsLt_bf16_f32) := by
  show StableHlo.after hostOps2 (W4 m c) (Proc.devRef .tc main_v69) = _
  after_results_simp <;> (try rw [w4_arg11 m c]) <;> rfl
theorem vin2_v70 : @Eq (FVec Ideal S128x1 .bf16) (Vin2 m c main_v70) (truncf .bf16 (a13 m c : FVec Ideal S128x1 .f32) bitsLt_bf16_f32) := by
  show StableHlo.after hostOps2 (W4 m c) (Proc.devRef .tc main_v70) = _
  after_results_simp <;> (try rw [w4_arg13 m c]) <;> rfl
theorem vin2_v71 : Vin2 m c main_v71 = shapeCast S1x256 (a10 m c) shapeCasts_S256_S1x256 := by
  show StableHlo.after hostOps2 (W4 m c) (Proc.devRef .tc main_v71) = _
  after_results_simp <;> (try rw [w4_arg10 m c]) <;> rfl
theorem vin2_v72 : Vin2 m c main_v72 = shapeCast S1x128 (a12 m c) shapeCasts_S128_S1x128 := by
  show StableHlo.after hostOps2 (W4 m c) (Proc.devRef .tc main_v72) = _
  after_results_simp <;> (try rw [w4_arg12 m c]) <;> rfl
theorem vin2_v73 : Vin2 m c main_v73 = shapeCast S1x1 (a14 m c) shapeCasts_S1_S1x1 := by
  show StableHlo.after hostOps2 (W4 m c) (Proc.devRef .tc main_v73) = _
  after_results_simp <;> (try rw [w4_arg14 m c]) <;> rfl

theorem h2 : W6 m c (Proc.devRef .tc main_v74) = Cert.ReferenceIdeal.Read.val_main_v81 (F := Ideal) (a0 m c) (a1 m c) (a2 m c) (a3 m c) (a4 m c) (a5 m c) (a6 m c) (a7 m c) (a8 m c) (a9 m c) (a10 m c) (a11 m c) (a12 m c) (a13 m c) (a14 m c) := by
  have key : ∀ i : S400000x1.Idx, (dat2 (F := Ideal) (Vin2 m) c).arrAt 7 cfg2.N i = Cert.ReferenceIdeal.Read.val_main_v81 (F := Ideal) (a0 m c) (a1 m c) (a2 m c) (a3 m c) (a4 m c) (a5 m c) (a6 m c) (a7 m c) (a8 m c) (a9 m c) (a10 m c) (a11 m c) (a12 m c) (a13 m c) (a14 m c) i := by
    intro i
    obtain ⟨r, q, rfl⟩ : ∃ (r : Fin 400000) (q : Fin 1), i = ix2 r q := ⟨i 0, i 1, eq_ix2 i⟩
    obtain ⟨t, p, rfl⟩ : ∃ (t : Fin cfg2.N) (p : Fin 5000), r = ⟨5000 * t.val + p.val, row_lt2 t p⟩ :=
      ⟨pt2 r, rowIn2 r, Fin.ext (by show r.val = 5000 * (pt2 r).val + (rowIn2 r).val; rw [pt2_val, rowIn2_val]; exact (Nat.div_add_mod r.val 5000).symm)⟩
    refine (arr2_apply (Vin2 m) c t p q).trans ?_
    refine (pay2_apply _ _ _ _ _ _ _ p q).trans ?_
    rw [Cert.ReferenceIdeal.RefVal.ref81_apply]
    simp only [iblk2_0_apply, iblk2_1_apply, iblk2_2_apply, iblk2_3_apply, iblk2_4_apply, iblk2_5_apply, iblk2_6_apply]
    rw [vin2_v67 m c, vin2_v68 m c, vin2_v71 m c, vin2_v69 m c, vin2_v72 m c, vin2_v70 m c, vin2_v73 m c]
    simp only [ValueIdx.truncf_apply, shapeCast_a_1a_apply]
  exact (W6_arr m c 7).trans (funext key)

/-! ## The last host operation: the result -/

theorem w7_v75 : W7 m c (Proc.devRef .tc main_v75) = Cert.ReferenceIdeal.Read.val_main_v82 (F := Ideal) (a0 m c) (a1 m c) (a2 m c) (a3 m c) (a4 m c) (a5 m c) (a6 m c) (a7 m c) (a8 m c) (a9 m c) (a10 m c) (a11 m c) (a12 m c) (a13 m c) (a14 m c) := by
  show StableHlo.after hostOps3 (W6 m c) (Proc.devRef .tc main_v75) = _
  after_results_simp
  rw [h2 m c]
  rfl

end Cert.KernelIdeal.Val
end
-- ==== Proof.lean ====
/-
  The certificate's five claims.

  The program is a two-layer GraphSAGE encoder followed by an edge classifier: host operations (index
  normalisation, row gathers, scatter-adds, a division by the clamped degree, a concatenation) around three
  kernels — two SAGE layers `[max] (mean·Wn + x·Ws + b[, 0])` over row blocks of 5000 nodes, and a three-layer
  perceptron over row blocks of 5000 edges. The reference is the same computation in plain host operations.

  Frames. The kernel program (read at the word level and at the ideal instance) runs as seven segments, four
  stretches of host operations and three pipelined regions; its argument arrays are written by no host
  operation and held by no region, so they end as launched. The reference is a straight-line host program
  whose run is read back operation by operation.

  Equivalence at the ideal instance. Neither side re-associates anything: a kernel's matrix product into a
  zero accumulator and the host's `dot_general` are the same sum over the contracted axis, a change of float
  format is the identity, and every contraction lies inside one block (only rows are tiled). So each
  region's output array, read entry by entry, is the reference's corresponding stage applied to the same
  operands, and the host operations between the regions are the reference's own operations applied to equal
  arrays. No finiteness of the inputs is used.
-/
import proofs.«142010_j70282844831970_1_alg».proof.Defs
import proofs.«142010_j70282844831970_1_alg».proof.Proof.Gen.Kernel
import proofs.«142010_j70282844831970_1_alg».proof.Proof.Gen.KernelIdeal
import proofs.«142010_j70282844831970_1_alg».proof.Proof.Gen.ReferenceIdeal
import proofs.«142010_j70282844831970_1_alg».proof.Proof.Gen.Pre_finite_inputs
import proofs.«142010_j70282844831970_1_alg».proof.Proof.Gen.ReferenceIdeal.Run
import proofs.«142010_j70282844831970_1_alg».proof.Proof.Gen.ReferenceIdeal.Read
import proofs.«142010_j70282844831970_1_alg».proof.Proof.K.Run
import proofs.«142010_j70282844831970_1_alg».proof.Proof.KI.Run
import proofs.«142010_j70282844831970_1_alg».proof.Proof.Val.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Fr.frame m ρ
theorem frame_ki [Cert.KernelIdeal.Facts] [Cert.Pre_finite_inputs.Facts] : Cert.frame_KernelIdeal := fun m ρ _ => Cert.KernelIdeal.Fr.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealized kernel ends with its result at the last contents of the fold, which is the reference's last
    stage of the kernel's own arguments; the reference ends at that stage of its arguments, which agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Fr.W7 m c (Proc.devRef .tc Cert.KernelIdeal.main_v75), ?_, ?_⟩
  · exact (θ_run Cert.KernelIdeal.defs _ _).mono (fun r h c => ⟨h c _ (Cert.KernelIdeal.Fr.mem_uc Cert.KernelIdeal.main_v75 (by decide)),
      (h c _ (Cert.KernelIdeal.Fr.mem_uc Cert.KernelIdeal.main_arg0 (by decide))).trans (Cert.KernelIdeal.Fr.W7_keep m c Cert.KernelIdeal.main_arg0 (by decide) (by decide) (by decide) (by decide) (by decide) (by decide) (by decide)),
      (h c _ (Cert.KernelIdeal.Fr.mem_uc Cert.KernelIdeal.main_arg1 (by decide))).trans (Cert.KernelIdeal.Fr.W7_keep m c Cert.KernelIdeal.main_arg1 (by decide) (by decide) (by decide) (by decide) (by decide) (by decide) (by decide)),
      (h c _ (Cert.KernelIdeal.Fr.mem_uc Cert.KernelIdeal.main_arg2 (by decide))).trans (Cert.KernelIdeal.Fr.W7_keep m c Cert.KernelIdeal.main_arg2 (by decide) (by decide) (by decide) (by decide) (by decide) (by decide) (by decide)),
      (h c _ (Cert.KernelIdeal.Fr.mem_uc Cert.KernelIdeal.main_arg3 (by decide))).trans (Cert.KernelIdeal.Fr.W7_keep m c Cert.KernelIdeal.main_arg3 (by decide) (by decide) (by decide) (by decide) (by decide) (by decide) (by decide)),
      (h c _ (Cert.KernelIdeal.Fr.mem_uc Cert.KernelIdeal.main_arg4 (by decide))).trans (Cert.KernelIdeal.Fr.W7_keep m c Cert.KernelIdeal.main_arg4 (by decide) (by decide) (by decide) (by decide) (by decide) (by decide) (by decide)),
      (h c _ (Cert.KernelIdeal.Fr.mem_uc Cert.KernelIdeal.main_arg5 (by decide))).trans (Cert.KernelIdeal.Fr.W7_keep m c Cert.KernelIdeal.main_arg5 (by decide) (by decide) (by decide) (by decide) (by decide) (by decide) (by decide)),
      (h c _ (Cert.KernelIdeal.Fr.mem_uc Cert.KernelIdeal.main_arg6 (by decide))).trans (Cert.KernelIdeal.Fr.W7_keep m c Cert.KernelIdeal.main_arg6 (by decide) (by decide) (by decide) (by decide) (by decide) (by decide) (by decide)),
      (h c _ (Cert.KernelIdeal.Fr.mem_uc Cert.KernelIdeal.main_arg7 (by decide))).trans (Cert.KernelIdeal.Fr.W7_keep m c Cert.KernelIdeal.main_arg7 (by decide) (by decide) (by decide) (by decide) (by decide) (by decide) (by decide)),
      (h c _ (Cert.KernelIdeal.Fr.mem_uc Cert.KernelIdeal.main_arg8 (by decide))).trans (Cert.KernelIdeal.Fr.W7_keep m c Cert.KernelIdeal.main_arg8 (by decide) (by decide) (by decide) (by decide) (by decide) (by decide) (by decide)),
      (h c _ (Cert.KernelIdeal.Fr.mem_uc Cert.KernelIdeal.main_arg9 (by decide))).trans (Cert.KernelIdeal.Fr.W7_keep m c Cert.KernelIdeal.main_arg9 (by decide) (by decide) (by decide) (by decide) (by decide) (by decide) (by decide)),
      (h c _ (Cert.KernelIdeal.Fr.mem_uc Cert.KernelIdeal.main_arg10 (by decide))).trans (Cert.KernelIdeal.Fr.W7_keep m c Cert.KernelIdeal.main_arg10 (by decide) (by decide) (by decide) (by decide) (by decide) (by decide) (by decide)),
      (h c _ (Cert.KernelIdeal.Fr.mem_uc Cert.KernelIdeal.main_arg11 (by decide))).trans (Cert.KernelIdeal.Fr.W7_keep m c Cert.KernelIdeal.main_arg11 (by decide) (by decide) (by decide) (by decide) (by decide) (by decide) (by decide)),
      (h c _ (Cert.KernelIdeal.Fr.mem_uc Cert.KernelIdeal.main_arg12 (by decide))).trans (Cert.KernelIdeal.Fr.W7_keep m c Cert.KernelIdeal.main_arg12 (by decide) (by decide) (by decide) (by decide) (by decide) (by decide) (by decide)),
      (h c _ (Cert.KernelIdeal.Fr.mem_uc Cert.KernelIdeal.main_arg13 (by decide))).trans (Cert.KernelIdeal.Fr.W7_keep m c Cert.KernelIdeal.main_arg13 (by decide) (by decide) (by decide) (by decide) (by decide) (by decide) (by decide)),
      (h c _ (Cert.KernelIdeal.Fr.mem_uc Cert.KernelIdeal.main_arg14 (by decide))).trans (Cert.KernelIdeal.Fr.W7_keep m c Cert.KernelIdeal.main_arg14 (by decide) (by decide) (by decide) (by decide) (by decide) (by decide) (by decide))⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.KernelIdeal.Val.w7_v75 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
